-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1000 : Shape := ⟨2, ![4096, 1000]⟩
abbrev S1x1000 : Shape := ⟨2, ![1, 1000]⟩
abbrev S1 : Shape := ⟨1, ![1]⟩
abbrev S1000x64 : Shape := ⟨2, ![1000, 64]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x64 : Shape := ⟨2, ![1, 64]⟩
abbrev S_ : Shape := ⟨0, ![]⟩

class Facts : Prop where
  bcast_S_S4096x1000 : S_.BroadcastsInDim S4096x1000 (![] : Fin 0 → Fin S4096x1000.rank)
  reducesTo_S4096x1000_S_d0_1 : S4096x1000.ReducesTo [0, 1] S_
  h_S_ : 0 < S_.numel
  bcast_S_S1x1000 : S_.BroadcastsInDim S1x1000 (![] : Fin 0 → Fin S1x1000.rank)
  reducesTo_S1x1000_S_d0_1 : S1x1000.ReducesTo [0, 1] S_
  bcast_S_S1 : S_.BroadcastsInDim S1 (![] : Fin 0 → Fin S1.rank)
  reducesTo_S1_S_d0 : S1.ReducesTo [0] S_
  bcast_S_S1000x64 : S_.BroadcastsInDim S1000x64 (![] : Fin 0 → Fin S1000x64.rank)
  reducesTo_S1000x64_S_d0_1 : S1000x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg7 : FVec F S64 .f32) (main_arg8 : FVec F S1x64 .f32) (main_arg9 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1x64 .f32 := Host.absf main_arg8
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S128x64 .f32) (main_arg5 : FVec F S128 .f32) (main_arg6 : FVec F S64x128 .f32) (main_arg7 : FVec F S64 .f32) (main_arg8 : FVec F S1x64 .f32) (main_arg9 : FVec F S1 .f32) (main_v13 : IVec S_ 1) (main_v16 : IVec S1000x64 1) : IVec S_ 1 :=
  let main_c_5 : IVec S_ 1 := constantI S_ 1 1#1
  let main_v17 : IVec S_ 1 := (fun x v => Host.reduce IntOp.andi x v reducesTo_S1000x64_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x1000 .f32) (main_arg1 : FVec F S1x1000 .f32) (main_arg2 : FVec F S1 .f32) (main_arg3 : FVec F S1000x64 .f32) (main_arg4 : FVec F S128x64 .f32) (main_arg5 : FVec F S128 .f32) (main_arg6 : FVec F S64x128 .f32) (main_arg7 : FVec F S64 .f32) (main_arg8 : FVec F S1x64 .f32) (main_arg9 : FVec F S1 .f32) : IVec S_ 1 :=
  let main_v0 : FVec F S4096x1000 .f32 := Host.absf main_arg0
  let main_cst : FVec F S_ .f32 := constant S_ .f32 0x7F800000#32
  let main_v1 : FVec F S4096x1000 .f32 := broadcastInDim S4096x1000 ![] bcast_S_S4096x1000 main_cst
  let main_v2 : IVec S4096x1000 1 := cmpf .olt main_v0 main_v1
  let main_c : IVec S_ 1 := constantI S_ 1 1#1
  let main_v3 : IVec S_ 1 := (fun x v => Host.reduce IntOp.andi x v reducesTo_S4096x1000_S_d0_1 h_S_) main_v2 main_c
  let main_v4 : FVec F S1x1000 .f32 := Host.absf main_arg1
  let main_cst_0 : FVec F S_ .f32 := constant S_ .f32 0x7F800000#32
  let main_v5 : FVec F S1x1000 .f32 := broadcastInDim S1x1000 ![] bcast_S_S1x1000 main_cst_0
  let main_v6 : IVec S1x1000 1 := cmpf .olt main_v4 main_v5
  let main_c_1 : IVec S_ 1 := constantI S_ 1 1#1
  let main_v7 : IVec S_ 1 := (fun x v => Host.reduce IntOp.andi x v reducesTo_S1x1000_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1000x64 .f32 := Host.absf main_arg3
  let main_cst_4 : FVec F S_ .f32 := constant S_ .f32 0x7F800000#32
  let main_v15 : FVec F S1000x64 .f32 := broadcastInDim S1000x64 ![] bcast_S_S1000x64 main_cst_4
  let main_v16 : IVec S1000x64 1 := cmpf .olt main_v14 main_v15
  fn_part1 (F := F) main_arg4 main_arg5 main_arg6 main_arg7 main_arg8 main_arg9 main_v13 main_v16
-- ==== Kernel.lean ====
abbrev S4096x1000 : Shape := ⟨2, ![4096, 1000]⟩
abbrev S1x1000 : Shape := ⟨2, ![1, 1000]⟩
abbrev S1 : Shape := ⟨1, ![1]⟩
abbrev S1000x64 : Shape := ⟨2, ![1000, 64]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1000x1 : Shape := ⟨2, ![1000, 1]⟩
abbrev S1x1 : Shape := ⟨2, ![1, 1]⟩
abbrev S1x128 : Shape := ⟨2, ![1, 128]⟩
abbrev S64x1 : Shape := ⟨2, ![64, 1]⟩
abbrev S4096x1 : Shape := ⟨2, ![4096, 1]⟩
abbrev S512x1000 : Shape := ⟨2, ![512, 1000]⟩
abbrev S512x1 : Shape := ⟨2, ![512, 1]⟩
abbrev S1000 : Shape := ⟨1, ![1000]⟩
abbrev S1000x66 : Shape := ⟨2, ![1000, 66]⟩
abbrev S512x66 : Shape := ⟨2, ![512, 66]⟩
abbrev S512x64 : Shape := ⟨2, ![512, 64]⟩
abbrev S512x128 : Shape := ⟨2, ![512, 128]⟩
abbrev S4096 : Shape := ⟨1, ![4096]⟩

abbrev nBuf : Space → Nat
  | .hbm => 20
  | .vmem => 13
  | .smem => 0
  | _ => 0

abbrev bufTy : (tb : Table) → Fin (tcTables nBuf tb) → BufTy
  | .hbm, ⟨0, _⟩ => ⟨S4096x1000, .f32⟩
  | .hbm, ⟨1, _⟩ => ⟨S1x1000, .f32⟩
  | .hbm, ⟨2, _⟩ => ⟨S1, .f32⟩
  | .hbm, ⟨3, _⟩ => ⟨S1000x64, .f32⟩
  | .hbm, ⟨4, _⟩ => ⟨S128x64, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S1000x1, .f32⟩
  | .hbm, ⟨11, _⟩ => ⟨S1x1, .f32⟩
  | .hbm, ⟨12, _⟩ => ⟨S1x1, .f32⟩
  | .hbm, ⟨13, _⟩ => ⟨S64x128, .f32⟩
  | .hbm, ⟨14, _⟩ => ⟨S1x128, .f32⟩
  | .hbm, ⟨15, _⟩ => ⟨S128x64, .f32⟩
  | .hbm, ⟨16, _⟩ => ⟨S1x64, .f32⟩
  | .hbm, ⟨17, _⟩ => ⟨S64x1, .f32⟩
  | .hbm, ⟨18, _⟩ => ⟨S4096x1, .f32⟩
  | .hbm, ⟨19, _⟩ => ⟨S4096, .f32⟩
  | .local _ .vmem, ⟨0, _⟩ => ⟨S512x1000, .f32⟩
  | .local _ .vmem, ⟨1, _⟩ => ⟨S512x1000, .f32⟩
  | .local _ .vmem, ⟨2, _⟩ => ⟨S1000x64, .f32⟩
  | .local _ .vmem, ⟨3, _⟩ => ⟨S1000x1, .f32⟩
  | .local _ .vmem, ⟨4, _⟩ => ⟨S1x1, .f32⟩
  | .local _ .vmem, ⟨5, _⟩ => ⟨S64x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S64x1, .f32⟩
  | .local _ .vmem, ⟨10, _⟩ => ⟨S1x1, .f32⟩
  | .local _ .vmem, ⟨11, _⟩ => ⟨S512x1, .f32⟩
  | .local _ .vmem, ⟨12, _⟩ => ⟨S512x1, .f32⟩
  | _, _ => ⟨S4096x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S1x1000_S1000x1 : S1x1000.ShapeCasts S1000x1
  shapeCasts_S1_S1x1 : S1.ShapeCasts S1x1
  transposes_S128x64_S64x128_1_0 : S128x64.Transposes [1, 0] S64x128
  shapeCasts_S128_S1x128 : S128.ShapeCasts S1x128
  transposes_S64x128_S128x64_1_0 : S64x128.Transposes [1, 0] S128x64
  shapeCasts_S64_S1x64 : S64.ShapeCasts S1x64
  transposes_S1x64_S64x1_1_0 : S1x64.Transposes [1, 0] S64x1
  inb_S1000x64_S1000x64_0_0 : ∀ a, (![0, 0] : Fin 2 → Nat) a + S1000x64.size a ≤ S1000x64.size a
  h_S1000x64 : 0 < S1000x64.numel
  reduces_S1000x64_S1000 : S1000x64.Reduces [1] S1000
  shapeCasts_S1000_S1000x1 : S1000.ShapeCasts S1000x1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  concatenates_S1000x64_S1000x1_S1000x1_S1000x66_d1 : Shape.Concatenates [S1000x64, S1000x1, S1000x1] S1000x66 1
  inb_S512x1000_S512x1000_0_0 : ∀ a, (![0, 0] : Fin 2 → Nat) a + S512x1000.size a ≤ S512x1000.size a
  h_S512x1000 : 0 < S512x1000.numel
  slices_S512x66_o0_0_S512x64 : S512x66.Slices ![0, 0] S512x64
  slices_S512x66_o0_64_S512x1 : S512x66.Slices ![0, 64] S512x1
  slices_S512x66_o0_65_S512x1 : S512x66.Slices ![0, 65] S512x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S4096x1_S4096 : S4096x1.ShapeCasts S4096
  dot_S512x1000_S1000x66_S512x66_1_0_0_1_n_n_wf : DotDims.WF S512x1000 S1000x66 S512x66 [1] [0] [0] [1] [] []
  dot_S512x1000_S1000x1_S512x1_1_0_0_1_n_n_wf : DotDims.WF S512x1000 S1000x1 S512x1 [1] [0] [0] [1] [] []
  dot_S512x64_S64x128_S512x128_1_0_0_1_n_n_wf : DotDims.WF S512x64 S64x128 S512x128 [1] [0] [0] [1] [] []
  dot_S512x128_S128x64_S512x64_1_0_0_1_n_n_wf : DotDims.WF S512x128 S128x64 S512x64 [1] [0] [0] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S4096x1000.size a
  hwx0_0 : ∀ i : grid0.Coords, EltTy.bits .f32 = 32 ∨ (Rect.block (s := S4096x1000) S512x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x64.size a ≤ S1000x64.size a
  hwx0_1 : ∀ i : grid0.Coords, EltTy.bits .f32 = 32 ∨ (Rect.block (s := S1000x64) S1000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S1000x1.size a
  hwx0_2 : ∀ i : grid0.Coords, EltTy.bits .f32 = 32 ∨ (Rect.block (s := S1000x1) S1000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S4096x1.size a
  hwx0_10 : ∀ i : grid0.Coords, EltTy.bits .f32 = 32 ∨ (Rect.block (s := S4096x1) S512x1.size (cc0_transform_10 i) (hinb0_10 i)).WholeWords (EltTy.packing .f32)

variable [Facts₀]

def dot_S512x1000_S1000x66_S512x66_1_0_0_1_n_n : DotDims S512x1000 S1000x66 S512x66 where
  lhsContracting := [1]
  rhsContracting := [0]
  lhsNonContracting := [0]
  rhsNonContracting := [1]
  lhsBatch := []
  rhsBatch := []
  wf := dot_S512x1000_S1000x66_S512x66_1_0_0_1_n_n_wf
def dot_S512x1000_S1000x1_S512x1_1_0_0_1_n_n : DotDims S512x1000 S1000x1 S512x1 where
  lhsContracting := [1]
  rhsContracting := [0]
  lhsNonContracting := [0]
  rhsNonContracting := [1]
  lhsBatch := []
  rhsBatch := []
  wf := dot_S512x1000_S1000x1_S512x1_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S512x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x1000 : Shape := ⟨2, ![4096, 1000]⟩
abbrev S1x1000 : Shape := ⟨2, ![1, 1000]⟩
abbrev S1 : Shape := ⟨1, ![1]⟩
abbrev S1000x64 : Shape := ⟨2, ![1000, 64]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1000x1 : Shape := ⟨2, ![1000, 1]⟩
abbrev S4096x1 : Shape := ⟨2, ![4096, 1]⟩
abbrev S1x1 : Shape := ⟨2, ![1, 1]⟩
abbrev S4096x64 : Shape := ⟨2, ![4096, 64]⟩
abbrev S_ : Shape := ⟨0, ![]⟩
abbrev S4096 : Shape := ⟨1, ![4096]⟩
abbrev S4096x128 : Shape := ⟨2, ![4096, 128]⟩
abbrev S1x128 : Shape := ⟨2, ![1, 128]⟩
abbrev S64x1 : Shape := ⟨2, ![64, 1]⟩

abbrev nBuf : Space → Nat
  | .hbm => 67
  | .vmem => 0
  | .smem => 0
  | _ => 0

abbrev bufTy : (tb : Table) → Fin (tcTables nBuf tb) → BufTy
  | .hbm, ⟨0, _⟩ => ⟨S4096x1000, .f32⟩
  | .hbm, ⟨1, _⟩ => ⟨S1x1000, .f32⟩
  | .hbm, ⟨2, _⟩ => ⟨S1, .f32⟩
  | .hbm, ⟨3, _⟩ => ⟨S1000x64, .f32⟩
  | .hbm, ⟨4, _⟩ => ⟨S128x64, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S1000x1, .f32⟩
  | .hbm, ⟨11, _⟩ => ⟨S4096x1, .f32⟩
  | .hbm, ⟨12, _⟩ => ⟨S1x1, .f32⟩
  | .hbm, ⟨13, _⟩ => ⟨S4096x1, .f32⟩
  | .hbm, ⟨14, _⟩ => ⟨S4096x1, .f32⟩
  | .hbm, ⟨15, _⟩ => ⟨S4096x64, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096x1000, .f32⟩
  | .hbm, ⟨20, _⟩ => ⟨S1000x64, .f32⟩
  | .hbm, ⟨21, _⟩ => ⟨S4096x64, .f32⟩
  | .hbm, ⟨22, _⟩ => ⟨S_, .f32⟩
  | .hbm, ⟨23, _⟩ => ⟨S4096, .f32⟩
  | .hbm, ⟨24, _⟩ => ⟨S64x128, .f32⟩
  | .hbm, ⟨25, _⟩ => ⟨S4096x128, .f32⟩
  | .hbm, ⟨26, _⟩ => ⟨S1x128, .f32⟩
  | .hbm, ⟨27, _⟩ => ⟨S4096x128, .f32⟩
  | .hbm, ⟨28, _⟩ => ⟨S4096x128, .f32⟩
  | .hbm, ⟨29, _⟩ => ⟨S_, .f32⟩
  | .hbm, ⟨30, _⟩ => ⟨S4096x128, .f32⟩
  | .hbm, ⟨31, _⟩ => ⟨S4096x128, .f32⟩
  | .hbm, ⟨32, _⟩ => ⟨S128x64, .f32⟩
  | .hbm, ⟨33, _⟩ => ⟨S4096x64, .f32⟩
  | .hbm, ⟨34, _⟩ => ⟨S1x64, .f32⟩
  | .hbm, ⟨35, _⟩ => ⟨S4096x64, .f32⟩
  | .hbm, ⟨36, _⟩ => ⟨S4096x64, .f32⟩
  | .hbm, ⟨37, _⟩ => ⟨S_, .f32⟩
  | .hbm, ⟨38, _⟩ => ⟨S4096x64, .f32⟩
  | .hbm, ⟨39, _⟩ => ⟨S4096x64, .f32⟩
  | .hbm, ⟨40, _⟩ => ⟨S64x1, .f32⟩
  | .hbm, ⟨41, _⟩ => ⟨S4096x1, .f32⟩
  | .hbm, ⟨42, _⟩ => ⟨S1x1, .f32⟩
  | .hbm, ⟨43, _⟩ => ⟨S4096x1, .f32⟩
  | .hbm, ⟨44, _⟩ => ⟨S4096x1, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096, .f32⟩
  | _, _ => ⟨S4096x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call1_cst : Ref sig .tc := ⟨.hbm, 37, rfl⟩
abbrev main_call1_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_1 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]

class Facts₀ : Prop where
  transposes_S1x1000_S1000x1_1_0 : S1x1000.Transposes [1, 0] S1000x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x64_S4096_d1 : S4096x64.ReducesTo [1] S4096
  h_S_ : 0 < S_.numel
  transposes_S128x64_S64x128_1_0 : S128x64.Transposes [1, 0] S64x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S64x128_S128x64_1_0 : S64x128.Transposes [1, 0] S128x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  transposes_S1x64_S64x1_1_0 : S1x64.Transposes [1, 0] S64x1
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096 : S4096x1.ShapeCasts S4096
  dot_S4096x1000_S1000x1_S4096x1_1_0_0_1_n_n_wf : DotDims.WF S4096x1000 S1000x1 S4096x1 [1] [0] [0] [1] [] []
  dot_S4096x1000_S1000x64_S4096x64_1_0_0_1_n_n_wf : DotDims.WF S4096x1000 S1000x64 S4096x64 [1] [0] [0] [1] [] []
  dot_S4096x64_S64x128_S4096x128_1_0_0_1_n_n_wf : DotDims.WF S4096x64 S64x128 S4096x128 [1] [0] [0] [1] [] []
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []

variable [Facts₀]

def dot_S4096x1000_S1000x1_S4096x1_1_0_0_1_n_n : DotDims S4096x1000 S1000x1 S4096x1 where
  lhsContracting := [1]
  rhsContracting := [0]
  lhsNonContracting := [0]
  rhsNonContracting := [1]
  lhsBatch := []
  rhsBatch := []
  wf := dot_S4096x1000_S1000x1_S4096x1_1_0_0_1_n_n_wf
def dot_S4096x1000_S1000x64_S4096x64_1_0_0_1_n_n : DotDims S4096x1000 S1000x64 S4096x64 where
  lhsContracting := [1]
  rhsContracting := [0]
  lhsNonContracting := [0]
  rhsNonContracting := [1]
  lhsBatch := []
  rhsBatch := []
  wf := dot_S4096x1000_S1000x64_S4096x64_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.Blocks.lean ====
/-
  The arrays the kernel region finds, and each window's block at a grid point.

  Before the region the host re-lays the weights: the linear weights become a column, the two scalar biases
  1 × 1 arrays, the layer biases rows, and the three layer matrices are transposed. The input array and the
  factor matrix are staged as launched. Window 0 steps through the input array 512 rows at a time (block `t`
  holds rows 512·t … 512·t + 511), as does the output window through the 4096 × 1 result; every other input
  window stages its whole array at every point.
-/
import proofs.«109720_g84026740179138_cont_9to1c4b_688_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The host lines before the region, as whole arrays -/

/-- The linear weights as the region finds them: the 1 × 1000 row re-laid as a 1000 × 1 column. -/
theorem V_wl (c : Dev nD) : (V m c main_v0 : S1000x1.Idx → EReal)
    = shapeCast S1000x1 (m ((c : Thread nD τ).loc main_arg1)) shapeCasts_S1x1000_S1000x1 := by
  show StableHlo.after hostOps0 (fun b => m (c, b)) (Proc.devRef .tc main_v0) = _
  after_results
  rfl

/-- The linear bias as a 1 × 1 array. -/
theorem V_bl (c : Dev nD) : (V m c main_v1 : S1x1.Idx → EReal)
    = shapeCast S1x1 (m ((c : Thread nD τ).loc main_arg2)) shapeCasts_S1_S1x1 := by
  show StableHlo.after hostOps0 (fun b => m (c, b)) (Proc.devRef .tc main_v1) = _
  after_results
  rfl

/-- The output layer's bias as a 1 × 1 array. -/
theorem V_b3 (c : Dev nD) : (V m c main_v2 : S1x1.Idx → EReal)
    = shapeCast S1x1 (m ((c : Thread nD τ).loc main_arg9)) shapeCasts_S1_S1x1 := by
  show StableHlo.after hostOps0 (fun b => m (c, b)) (Proc.devRef .tc main_v2) = _
  after_results
  rfl

/-- The first layer's matrix, transposed to 64 × 128. -/
theorem V_W1t (c : Dev nD) : (V m c main_v3 : S64x128.Idx → EReal)
    = transpose S64x128 [1, 0] (m ((c : Thread nD τ).loc main_arg4)) transposes_S128x64_S64x128_1_0 := by
  show StableHlo.after hostOps0 (fun b => m (c, b)) (Proc.devRef .tc main_v3) = _
  after_results

/-- The first layer's bias as a 1 × 128 row. -/
theorem V_b1 (c : Dev nD) : (V m c main_v4 : S1x128.Idx → EReal)
    = shapeCast S1x128 (m ((c : Thread nD τ).loc main_arg5)) shapeCasts_S128_S1x128 := by
  show StableHlo.after hostOps0 (fun b => m (c, b)) (Proc.devRef .tc main_v4) = _
  after_results
  rfl

/-- The second layer's matrix, transposed to 128 × 64. -/
theorem V_W2t (c : Dev nD) : (V m c main_v5 : S128x64.Idx → EReal)
    = transpose S128x64 [1, 0] (m ((c : Thread nD τ).loc main_arg6)) transposes_S64x128_S128x64_1_0 := by
  show StableHlo.after hostOps0 (fun b => m (c, b)) (Proc.devRef .tc main_v5) = _
  after_results

/-- The second layer's bias as a 1 × 64 row. -/
theorem V_b2 (c : Dev nD) : (V m c main_v6 : S1x64.Idx → EReal)
    = shapeCast S1x64 (m ((c : Thread nD τ).loc main_arg7)) shapeCasts_S64_S1x64 := by
  show StableHlo.after hostOps0 (fun b => m (c, b)) (Proc.devRef .tc main_v6) = _
  after_results
  rfl

/-- The output layer's row, transposed to a 64 × 1 column. -/
theorem V_W3t (c : Dev nD) : (V m c main_v7 : S64x1.Idx → EReal)
    = transpose S64x1 [1, 0] (m ((c : Thread nD τ).loc main_arg8)) transposes_S1x64_S64x1_1_0 := by
  show StableHlo.after hostOps0 (fun b => m (c, b)) (Proc.devRef .tc main_v7) = _
  after_results

/-! ## The same, entry by entry -/

/-- Entry `n` of the linear-weight column is entry `n` of the launched row. -/
theorem wl_apply (c : Dev nD) (n : Fin 1000) :
    (V m c main_v0 : S1000x1.Idx → EReal) (ix2 n 0) = ((m ((c : Thread nD τ).loc main_arg1)) : S1x1000.Idx → EReal) (ix2 0 n) := by
  refine (congrFun (V_wl m c) (ix2 n 0)).trans ?_
  exact shapeCast_apply _ shapeCasts_S1x1000_S1000x1 _ _ (by
    rewrite [Shape.rowMajor_val_two, Shape.rowMajor_val_two]; show 0 * 1000 + n.val = n.val * 1 + 0; omega)

theorem bl_apply (c : Dev nD) :
    (V m c main_v1 : S1x1.Idx → EReal) (ix2 0 0) = ((m ((c : Thread nD τ).loc main_arg2)) : S1.Idx → EReal) (ix1 0) := by
  refine (congrFun (V_bl m c) (ix2 0 0)).trans ?_
  exact shapeCast_apply _ shapeCasts_S1_S1x1 _ _ (by
    rewrite [Shape.rowMajor_val_two, Shape.rowMajor_val_one]; rfl)

theorem b3_apply (c : Dev nD) :
    (V m c main_v2 : S1x1.Idx → EReal) (ix2 0 0) = ((m ((c : Thread nD τ).loc main_arg9)) : S1.Idx → EReal) (ix1 0) := by
  refine (congrFun (V_b3 m c) (ix2 0 0)).trans ?_
  exact shapeCast_apply _ shapeCasts_S1_S1x1 _ _ (by
    rewrite [Shape.rowMajor_val_two, Shape.rowMajor_val_one]; rfl)

/-- Entry (e, j) of the transposed first-layer matrix is entry (j, e) of the launched one. -/
theorem W1t_apply (c : Dev nD) (e : Fin 64) (j : Fin 128) :
    (V m c main_v3 : S64x128.Idx → EReal) (ix2 e j) = ((m ((c : Thread nD τ).loc main_arg4)) : S128x64.Idx → EReal) (ix2 j e) := by
  refine (congrFun (V_W1t m c) (ix2 e j)).trans ?_
  exact transpose_apply [1, 0] _ transposes_S128x64_S64x128_1_0 _ _ (fun b => match b with
    | ⟨0, _⟩ => rfl
    | ⟨1, _⟩ => rfl)

theorem b1_apply (c : Dev nD) (j : Fin 128) :
    (V m c main_v4 : S1x128.Idx → EReal) (ix2 0 j) = ((m ((c : Thread nD τ).loc main_arg5)) : S128.Idx → EReal) (ix1 j) := by
  refine (congrFun (V_b1 m c) (ix2 0 j)).trans ?_
  exact shapeCast_apply _ shapeCasts_S128_S1x128 _ _ (by
    rewrite [Shape.rowMajor_val_two, Shape.rowMajor_val_one]; show j.val = 0 * 128 + j.val; omega)

theorem W2t_apply (c : Dev nD) (j : Fin 128) (k : Fin 64) :
    (V m c main_v5 : S128x64.Idx → EReal) (ix2 j k) = ((m ((c : Thread nD τ).loc main_arg6)) : S64x128.Idx → EReal) (ix2 k j) := by
  refine (congrFun (V_W2t m c) (ix2 j k)).trans ?_
  exact transpose_apply [1, 0] _ transposes_S64x128_S128x64_1_0 _ _ (fun b => match b with
    | ⟨0, _⟩ => rfl
    | ⟨1, _⟩ => rfl)

theorem b2_apply (c : Dev nD) (k : Fin 64) :
    (V m c main_v6 : S1x64.Idx → EReal) (ix2 0 k) = ((m ((c : Thread nD τ).loc main_arg7)) : S64.Idx → EReal) (ix1 k) := by
  refine (congrFun (V_b2 m c) (ix2 0 k)).trans ?_
  exact shapeCast_apply _ shapeCasts_S64_S1x64 _ _ (by
    rewrite [Shape.rowMajor_val_two, Shape.rowMajor_val_one]; show k.val = 0 * 64 + k.val; omega)

theorem W3t_apply (c : Dev nD) (k : Fin 64) :
    (V m c main_v7 : S64x1.Idx → EReal) (ix2 k 0) = ((m ((c : Thread nD τ).loc main_arg8)) : S1x64.Idx → EReal) (ix2 0 k) := by
  refine (congrFun (V_W3t m c) (ix2 k 0)).trans ?_
  exact transpose_apply [1, 0] _ transposes_S1x64_S64x1_1_0 _ _ (fun b => match b with
    | ⟨0, _⟩ => rfl
    | ⟨1, _⟩ => rfl)

/-! ## The windows' block indices over the eight grid points -/

/-- Window 0 and the output window are at block row `t` at point `t`; every other window stays at block (0, 0). -/
theorem idx_facts : ∀ t : Fin cfg0.N,
    win0_0.index t (0 : Fin 2) = t.val ∧ win0_0.index t (1 : Fin 2) = 0
    ∧ win0_10.index t (0 : Fin 2) = t.val ∧ win0_10.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

end Cert.KernelIdeal.RunValue

end
-- ==== Proof.Spec.lean ====
/-
  The DeepFM score of one input row, as a function on the extended reals.

  A row `x : Fin 1000 → EReal` of the input is scored against the weights by
    * the linear term            lin  = Σ_n x n · wl n,
    * the factor embedding       emb e = Σ_n x n · F n e            (64 entries),
    * a three-layer perceptron   hid1 j = max (Σ_e emb e · W1 j e + b1 j) 0,
                                 hid2 k = max (Σ_j hid1 j · W2 k j + b2 k) 0,
                                 dnn    = Σ_k hid2 k · W3 k + b3,
    * the second-order term      ½ · (es · es − sq), with `es` the sum of the embedding's entries and
                                 `sq` the sum of the squared products,
  and the result is ½ + logistic (lin + bl + ½·(es·es − sq) + dnn) · 5.

  The two programs differ only in how they add up `es` and `sq`: one sums the embedding's entries
  (`esumCols`, `sqCols`: the column index outermost), the other first adds each factor row and then
  contracts with the input row (`esumRows`, `sqRows`: the row index outermost). For finite entries the two
  orders agree (`esumRows_eq_esumCols`, `sqRows_eq_sqCols`): distributing a finite factor over a finite sum,
  then exchanging the two summations.
-/
import Idealize.ShloMosaic.PureOps.Ideal
import Idealize.ShloMosaic.PureOps.Ideal.Laws
import Idealize.ShloMosaic.Lib.IdealHost

noncomputable section

namespace Cert.DeepFM

open Idealize.ShloMosaic

/-- The constant one half, as the binary32 word both programs carry. -/
abbrev half : EReal := Ideal.ofBits .f32 0x3F000000#32
/-- The constant five, as the binary32 word both programs carry. -/
abbrev five : EReal := Ideal.ofBits .f32 0x40A00000#32

variable (x : Fin 1000 → EReal) (wl : Fin 1000 → EReal) (bl : EReal) (Fm : Fin 1000 → Fin 64 → EReal)
  (W1 : Fin 128 → Fin 64 → EReal) (b1 : Fin 128 → EReal) (W2 : Fin 64 → Fin 128 → EReal) (b2 : Fin 64 → EReal)
  (W3 : Fin 64 → EReal) (b3 : EReal)

/-- The row's embedding: entry `e` is the row contracted with column `e` of the factor matrix. -/
def emb (e : Fin 64) : EReal := ∑ n : Fin 1000, x n * Fm n e
/-- The first-order term: the row contracted with the linear weights. -/
def lin : EReal := ∑ n : Fin 1000, x n * wl n
/-- First hidden layer: an affine map of the embedding, clipped below at zero. -/
def hid1 (j : Fin 128) : EReal := max ((∑ e : Fin 64, emb x Fm e * W1 j e) + b1 j) 0
/-- Second hidden layer. -/
def hid2 (k : Fin 64) : EReal := max ((∑ j : Fin 128, hid1 x Fm W1 b1 j * W2 k j) + b2 k) 0
/-- The perceptron's scalar output. -/
def dnn : EReal := (∑ k : Fin 64, hid2 x Fm W1 b1 W2 b2 k * W3 k) + b3

/-- The score, given the two second-order sums `es` and `sq`. -/
def score (es sq : EReal) : EReal :=
  half + Ideal.logistic (lin x wl + bl + half * (es * es - sq) + dnn x Fm W1 b1 W2 b2 W3 b3) * five

/-- Sum of the embedding's entries: columns outermost. -/
def esumCols : EReal := ∑ e : Fin 64, emb x Fm e
/-- Sum over columns of the squared row contracted with the squared column. -/
def sqCols : EReal := ∑ e : Fin 64, ∑ n : Fin 1000, (x n * x n) * (Fm n e * Fm n e)
/-- The row contracted with the factor matrix's row sums: rows outermost. -/
def esumRows : EReal := ∑ n : Fin 1000, x n * ∑ e : Fin 64, Fm n e
/-- The squared row contracted with the row sums of the squared factors. -/
def sqRows : EReal := ∑ n : Fin 1000, (x n * x n) * ∑ e : Fin 64, Fm n e * Fm n e

/-- The score with the column-outermost sums. -/
def scoreCols : EReal :=
  score x wl bl Fm W1 b1 W2 b2 W3 b3 (esumCols x Fm) (sqCols x Fm)
/-- The score with the row-outermost sums. -/
def scoreRows : EReal :=
  score x wl bl Fm W1 b1 W2 b2 W3 b3 (esumRows x Fm) (sqRows x Fm)

/-! ## The two summation orders agree on finite entries -/

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A contraction of real rows with real row sums, both orders: Σ_n a n · Σ_e g n e = Σ_e Σ_n a n · g n e. -/
theorem sum_mul_sum_comm {N E : Type*} [Fintype N] [Fintype E] (a : N → ℝ) (g : N → E → ℝ) :
    (∑ n : N, (a n : EReal) * ∑ e : E, (g n e : EReal)) = ∑ e : E, ∑ n : N, (a n : EReal) * (g n e : EReal) := by
  have h1 : ∀ n, (a n : EReal) * ∑ e : E, (g n e : EReal) = ((∑ e : E, a n * g n e : ℝ) : EReal) := by
    intro n
    rw [← coe_sum, ← EReal.coe_mul, Finset.mul_sum]
  have h2 : ∀ e, (∑ n : N, (a n : EReal) * (g n e : EReal)) = ((∑ n : N, a n * g n e : ℝ) : EReal) := by
    intro e
    rw [coe_sum]
    exact Finset.sum_congr rfl fun n _ => (EReal.coe_mul _ _).symm
  simp only [h1, h2]
  rw [← coe_sum, ← coe_sum, Finset.sum_comm]

variable {x Fm}

theorem esumRows_eq_esumCols (hx : ∀ n, ∃ r : ℝ, x n = (r : EReal)) (hF : ∀ n e, ∃ r : ℝ, Fm n e = (r : EReal)) :
    esumRows x Fm = esumCols x Fm := by
  choose a ha using hx
  choose g hg using hF
  unfold esumRows esumCols emb
  simp only [ha, hg]
  exact sum_mul_sum_comm a g

theorem sqRows_eq_sqCols (hx : ∀ n, ∃ r : ℝ, x n = (r : EReal)) (hF : ∀ n e, ∃ r : ℝ, Fm n e = (r : EReal)) :
    sqRows x Fm = sqCols x Fm := by
  choose a ha using hx
  choose g hg using hF
  unfold sqRows sqCols
  simp only [ha, hg, ← EReal.coe_mul]
  exact sum_mul_sum_comm (fun n => a n * a n) (fun n e => g n e * g n e)

theorem scoreRows_eq_scoreCols (hx : ∀ n, ∃ r : ℝ, x n = (r : EReal)) (hF : ∀ n e, ∃ r : ℝ, Fm n e = (r : EReal)) :
    scoreRows x wl bl Fm W1 b1 W2 b2 W3 b3 = scoreCols x wl bl Fm W1 b1 W2 b2 W3 b3 := by
  unfold scoreRows scoreCols
  rw [esumRows_eq_esumCols hx hF, sqRows_eq_sqCols hx hF]

end Cert.DeepFM

end
-- ==== Proof.Whole.lean ====
/-
  The whole result array as one function of the ten argument arrays: entry `b` of the 4096 results is the
  DeepFM score (Spec) of input row `b`, the weights read out of their arrays as stored (`W_lin` as a
  1 × 1000 row, `W1` as 128 × 64, `W2` as 64 × 128, `W3` as a 1 × 64 row; the biases as vectors).
-/
import proofs.«109720_g84026740179138_cont_9to1c4b_688_2_alg».proof.Proof.Spec
import Idealize.ShloMosaic.Lib.ValueIdx

noncomputable section

namespace Cert.DeepFM

open Idealize.ShloMosaic Idealize.ShloMosaic.ValueIdx

/-- Input row `b` of the 4096 × 1000 input array. -/
abbrev rowOf (x0 : FVec Ideal ⟨2, ![4096, 1000]⟩ .f32) (b : Fin 4096) : Fin 1000 → EReal := fun n => x0 (ix2 b n)

/-- Entry `b` of the result: the score of row `b`, the second-order sums taken columns outermost. -/
def G (x0 : FVec Ideal ⟨2, ![4096, 1000]⟩ .f32) (x1 : FVec Ideal ⟨2, ![1, 1000]⟩ .f32) (x2 : FVec Ideal ⟨1, ![1]⟩ .f32)
    (x3 : FVec Ideal ⟨2, ![1000, 64]⟩ .f32) (x4 : FVec Ideal ⟨2, ![128, 64]⟩ .f32) (x5 : FVec Ideal ⟨1, ![128]⟩ .f32)
    (x6 : FVec Ideal ⟨2, ![64, 128]⟩ .f32) (x7 : FVec Ideal ⟨1, ![64]⟩ .f32) (x8 : FVec Ideal ⟨2, ![1, 64]⟩ .f32)
    (x9 : FVec Ideal ⟨1, ![1]⟩ .f32) : FVec Ideal ⟨1, ![4096]⟩ .f32 :=
  fun i => scoreCols (rowOf x0 (i 0)) (fun n => x1 (ix2 0 n)) (x2 (ix1 0)) (fun n e => x3 (ix2 n e))
    (fun j e => x4 (ix2 j e)) (fun j => x5 (ix1 j)) (fun k j => x6 (ix2 k j)) (fun k => x7 (ix1 k))
    (fun k => x8 (ix2 0 k)) (x9 (ix1 0))

/-- The same with the second-order sums taken rows outermost. -/
def GRows (x0 : FVec Ideal ⟨2, ![4096, 1000]⟩ .f32) (x1 : FVec Ideal ⟨2, ![1, 1000]⟩ .f32) (x2 : FVec Ideal ⟨1, ![1]⟩ .f32)
    (x3 : FVec Ideal ⟨2, ![1000, 64]⟩ .f32) (x4 : FVec Ideal ⟨2, ![128, 64]⟩ .f32) (x5 : FVec Ideal ⟨1, ![128]⟩ .f32)
    (x6 : FVec Ideal ⟨2, ![64, 128]⟩ .f32) (x7 : FVec Ideal ⟨1, ![64]⟩ .f32) (x8 : FVec Ideal ⟨2, ![1, 64]⟩ .f32)
    (x9 : FVec Ideal ⟨1, ![1]⟩ .f32) : FVec Ideal ⟨1, ![4096]⟩ .f32 :=
  fun i => scoreRows (rowOf x0 (i 0)) (fun n => x1 (ix2 0 n)) (x2 (ix1 0)) (fun n e => x3 (ix2 n e))
    (fun j e => x4 (ix2 j e)) (fun j => x5 (ix1 j)) (fun k j => x6 (ix2 k j)) (fun k => x7 (ix1 k))
    (fun k => x8 (ix2 0 k)) (x9 (ix1 0))

/-- On finite input and factor arrays the two are one function. -/
theorem GRows_eq_G (x0 : FVec Ideal ⟨2, ![4096, 1000]⟩ .f32) (x1 : FVec Ideal ⟨2, ![1, 1000]⟩ .f32) (x2 : FVec Ideal ⟨1, ![1]⟩ .f32)
    (x3 : FVec Ideal ⟨2, ![1000, 64]⟩ .f32) (x4 : FVec Ideal ⟨2, ![128, 64]⟩ .f32) (x5 : FVec Ideal ⟨1, ![128]⟩ .f32)
    (x6 : FVec Ideal ⟨2, ![64, 128]⟩ .f32) (x7 : FVec Ideal ⟨1, ![64]⟩ .f32) (x8 : FVec Ideal ⟨2, ![1, 64]⟩ .f32)
    (x9 : FVec Ideal ⟨1, ![1]⟩ .f32)
    (h0 : ∀ i, ∃ r : ℝ, x0 i = (r : EReal)) (h3 : ∀ i, ∃ r : ℝ, x3 i = (r : EReal)) :
    GRows x0 x1 x2 x3 x4 x5 x6 x7 x8 x9 = G x0 x1 x2 x3 x4 x5 x6 x7 x8 x9 := by
  funext i
  exact scoreRows_eq_scoreCols _ _ _ _ _ _ _ _ (fun n => h0 _) (fun n e => h3 _)

end Cert.DeepFM

end
-- ==== Proof.RowValue.lean ====
/-
  One row of the kernel body's stored value is the DeepFM score of that row of the input block, the
  second-order sums taken rows outermost.
-/
import proofs.«109720_g84026740179138_cont_9to1c4b_688_2_alg».proof.Proof.Gen.KernelIdeal.Skeleton
import proofs.«109720_g84026740179138_cont_9to1c4b_688_2_alg».proof.Proof.Whole
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RowValue

open Cert.KernelIdeal Cert.KernelIdeal.Gen Idealize.ShloMosaic Idealize.ShloMosaic.ValueIdx

/-! ## Row sums and the concatenation -/

/-- The sum along a row of a 1000 × 64 matrix, kept as a column: entry `(n, 0)` is the sum of row `n`. -/
theorem rowsum_apply (v : FVec Ideal S1000x64 .f32) (n : Fin 1000) :
    shapeCast S1000x1 (multiReduction (F := Ideal) .add [1] S1000 v 0x00000000#32 reduces_S1000x64_S1000 (.inl rfl) rfl)
        shapeCasts_S1000_S1000x1 (ix2 n (0 : Fin 1))
      = ∑ e : Fin 64, v (ix2 n e) := by
  refine (shapeCast_apply _ shapeCasts_S1000_S1000x1 (ix2 n (0 : Fin 1)) (ix1 n) ?_).trans ?_
  · rw [Shape.rowMajor_val_one, Shape.rowMajor_val_two]
    show n.val = n.val * 1 + 0
    omega
  · refine (Ideal.multiReduction_add_single v 0x00000000#32 reduces_S1000x64_S1000 (.inl rfl) rfl (ix1 n)).trans ?_
    refine Finset.sum_congr rfl fun e _ => congrArg v ?_
    funext a
    apply Fin.ext
    match a with
    | ⟨0, _⟩ => rfl
    | ⟨1, _⟩ => rfl

/-- The three-piece concatenation `[F | a | b]` along the columns, read at a column below 64: the factor matrix there. -/
theorem concat_apply_lt (v0 : FVec Ideal S1000x64 .f32) (a b : FVec Ideal S1000x1 .f32) (n : Fin 1000) (q : Fin 66) (e : Fin 64)
    (hq : q.val = e.val) :
    concatenate S1000x66 1 [⟨S1000x64, v0⟩, ⟨S1000x1, a⟩, ⟨S1000x1, b⟩] concatenates_S1000x64_S1000x1_S1000x1_S1000x66_d1 (ix2 n q)
      = v0 (ix2 n e) := by
  refine concatenate_apply_piece (1 : Fin S1000x66.rank) [⟨S1000x64, v0⟩, ⟨S1000x1, a⟩, ⟨S1000x1, b⟩] concatenates_S1000x64_S1000x1_S1000x1_S1000x66_d1 (ix2 n q)
    0 (by show (0 : Nat) < 3; omega) S1000x64 v0 rfl rfl 0 rfl (ix2 n e) (fun c hc => ?_) ?_
  · match c with
    | ⟨0, _⟩ => rfl
    | ⟨1, _⟩ => exact absurd (Fin.ext rfl) hc
  · show 0 + e.val = q.val
    omega

/-- The same concatenation read at column 64: the second piece's one column. -/
theorem concat_apply_64 (v0 : FVec Ideal S1000x64 .f32) (a b : FVec Ideal S1000x1 .f32) (n : Fin 1000) (q : Fin 66)
    (hq : q.val = 64) :
    concatenate S1000x66 1 [⟨S1000x64, v0⟩, ⟨S1000x1, a⟩, ⟨S1000x1, b⟩] concatenates_S1000x64_S1000x1_S1000x1_S1000x66_d1 (ix2 n q)
      = a (ix2 n (0 : Fin 1)) := by
  refine concatenate_apply_piece (1 : Fin S1000x66.rank) [⟨S1000x64, v0⟩, ⟨S1000x1, a⟩, ⟨S1000x1, b⟩] concatenates_S1000x64_S1000x1_S1000x1_S1000x66_d1 (ix2 n q)
    1 (by show (1 : Nat) < 3; omega) S1000x1 a rfl rfl 64 rfl (ix2 n (0 : Fin 1)) (fun c hc => ?_) ?_
  · match c with
    | ⟨0, _⟩ => rfl
    | ⟨1, _⟩ => exact absurd (Fin.ext rfl) hc
  · show 64 + 0 = q.val
    omega

/-- The same concatenation read at column 65: the third piece's one column. -/
theorem concat_apply_65 (v0 : FVec Ideal S1000x64 .f32) (a b : FVec Ideal S1000x1 .f32) (n : Fin 1000) (q : Fin 66)
    (hq : q.val = 65) :
    concatenate S1000x66 1 [⟨S1000x64, v0⟩, ⟨S1000x1, a⟩, ⟨S1000x1, b⟩] concatenates_S1000x64_S1000x1_S1000x1_S1000x66_d1 (ix2 n q)
      = b (ix2 n (0 : Fin 1)) := by
  refine concatenate_apply_piece (1 : Fin S1000x66.rank) [⟨S1000x64, v0⟩, ⟨S1000x1, a⟩, ⟨S1000x1, b⟩] concatenates_S1000x64_S1000x1_S1000x1_S1000x66_d1 (ix2 n q)
    2 (by show (2 : Nat) < 3; omega) S1000x1 b rfl rfl 65 rfl (ix2 n (0 : Fin 1)) (fun c hc => ?_) ?_
  · match c with
    | ⟨0, _⟩ => rfl
    | ⟨1, _⟩ => exact absurd (Fin.ext rfl) hc
  · show 65 + 0 = q.val
    omega

/-! ## A matrix product read at an index -/

/-- A product of an `M × K` by a `K × N` matrix into the zero accumulator, read at `(p, c)`: the sum over the shared
    index of the products, for any contraction record whose operand indices have the plain coordinates (row and shared
    index on the left, shared index and column on the right). -/
theorem matmul_ix2_apply {M K N : Nat} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (lhs : FVec Ideal ⟨2, ![M, K]⟩ .f32) (rhs : FVec Ideal ⟨2, ![K, N]⟩ .f32) (p : Fin M) (c : Fin N) :
    matmul D none lhs rhs (constant (F := Ideal) ⟨2, ![M, N]⟩ .f32 0x00000000#32) (ix2 p c)
      = ∑ k : Fin K, lhs (ix2 p k) * rhs (ix2 k c) := by
  refine (Ideal.matmul_constant_zero_apply D none lhs rhs (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-! ### The block product `X · [F | wl | rowsum F]`: 512 × 1000 by 1000 × 66 -/

/-- The left operand's row coordinate is the output's row. -/
theorem lhs_mm66_0 (i : S512x66.Idx) (q : dot_S512x1000_S1000x66_S512x66_1_0_0_1_n_n.contr.Idx) :
    (dot_S512x1000_S1000x66_S512x66_1_0_0_1_n_n.lhsIdx i q 0).val = (i 0).val := by
  unfold DotDims.lhsIdx
  rw [dif_neg (show ¬(0 : Fin S512x1000.rank) ∈ dot_S512x1000_S1000x66_S512x66_1_0_0_1_n_n.lhsBatch by decide), dif_pos (show (0 : Fin S512x1000.rank) ∈ dot_S512x1000_S1000x66_S512x66_1_0_0_1_n_n.lhsNonContracting by decide)]
  rfl
/-- The left operand's column coordinate is the shared index. -/
theorem lhs_mm66_1 (i : S512x66.Idx) (q : dot_S512x1000_S1000x66_S512x66_1_0_0_1_n_n.contr.Idx) :
    (dot_S512x1000_S1000x66_S512x66_1_0_0_1_n_n.lhsIdx i q 1).val = (q ⟨0, by decide⟩).val :=
  dot_S512x1000_S1000x66_S512x66_1_0_0_1_n_n.lhsIdx_val_of_single rfl i q
/-- The right operand's row coordinate is the shared index. -/
theorem rhs_mm66_0 (i : S512x66.Idx) (q : dot_S512x1000_S1000x66_S512x66_1_0_0_1_n_n.contr.Idx) :
    (dot_S512x1000_S1000x66_S512x66_1_0_0_1_n_n.rhsIdx i q 0).val = (q ⟨0, by decide⟩).val :=
  dot_S512x1000_S1000x66_S512x66_1_0_0_1_n_n.rhsIdx_val_of_single rfl i q
/-- The right operand's column coordinate is the output's column. -/
theorem rhs_mm66_1 (i : S512x66.Idx) (q : dot_S512x1000_S1000x66_S512x66_1_0_0_1_n_n.contr.Idx) :
    (dot_S512x1000_S1000x66_S512x66_1_0_0_1_n_n.rhsIdx i q 1).val = (i 1).val := by
  unfold DotDims.rhsIdx
  rw [dif_neg (show ¬(1 : Fin S1000x66.rank) ∈ dot_S512x1000_S1000x66_S512x66_1_0_0_1_n_n.rhsBatch by decide), dif_pos (show (1 : Fin S1000x66.rank) ∈ dot_S512x1000_S1000x66_S512x66_1_0_0_1_n_n.rhsNonContracting by decide)]
  rfl

/-- The 512 × 66 product at `(p, c)`: row `p` of the left operand against column `c` of the right. -/
theorem mm66_apply (lhs : FVec Ideal S512x1000 .f32) (rhs : FVec Ideal S1000x66 .f32) (p : Fin 512) (c : Fin 66) :
    matmul dot_S512x1000_S1000x66_S512x66_1_0_0_1_n_n none lhs rhs (constant (F := Ideal) S512x66 .f32 0x00000000#32) (ix2 p c)
      = ∑ k : Fin 1000, lhs (ix2 p k) * rhs (ix2 k c) :=
  matmul_ix2_apply dot_S512x1000_S1000x66_S512x66_1_0_0_1_n_n rfl rfl lhs_mm66_0 lhs_mm66_1 rhs_mm66_0 rhs_mm66_1 lhs rhs p c

/-! ### The squared block against the row sums of the squared factors: 512 × 1000 by 1000 × 1 -/

/-- The left operand's row coordinate is the output's row. -/
theorem lhs_mmsq_0 (i : S512x1.Idx) (q : dot_S512x1000_S1000x1_S512x1_1_0_0_1_n_n.contr.Idx) :
    (dot_S512x1000_S1000x1_S512x1_1_0_0_1_n_n.lhsIdx i q 0).val = (i 0).val := by
  unfold DotDims.lhsIdx
  rw [dif_neg (show ¬(0 : Fin S512x1000.rank) ∈ dot_S512x1000_S1000x1_S512x1_1_0_0_1_n_n.lhsBatch by decide), dif_pos (show (0 : Fin S512x1000.rank) ∈ dot_S512x1000_S1000x1_S512x1_1_0_0_1_n_n.lhsNonContracting by decide)]
  rfl
/-- The left operand's column coordinate is the shared index. -/
theorem lhs_mmsq_1 (i : S512x1.Idx) (q : dot_S512x1000_S1000x1_S512x1_1_0_0_1_n_n.contr.Idx) :
    (dot_S512x1000_S1000x1_S512x1_1_0_0_1_n_n.lhsIdx i q 1).val = (q ⟨0, by decide⟩).val :=
  dot_S512x1000_S1000x1_S512x1_1_0_0_1_n_n.lhsIdx_val_of_single rfl i q
/-- The right operand's row coordinate is the shared index. -/
theorem rhs_mmsq_0 (i : S512x1.Idx) (q : dot_S512x1000_S1000x1_S512x1_1_0_0_1_n_n.contr.Idx) :
    (dot_S512x1000_S1000x1_S512x1_1_0_0_1_n_n.rhsIdx i q 0).val = (q ⟨0, by decide⟩).val :=
  dot_S512x1000_S1000x1_S512x1_1_0_0_1_n_n.rhsIdx_val_of_single rfl i q
/-- The right operand's column coordinate is the output's column. -/
theorem rhs_mmsq_1 (i : S512x1.Idx) (q : dot_S512x1000_S1000x1_S512x1_1_0_0_1_n_n.contr.Idx) :
    (dot_S512x1000_S1000x1_S512x1_1_0_0_1_n_n.rhsIdx i q 1).val = (i 1).val := by
  unfold DotDims.rhsIdx
  rw [dif_neg (show ¬(1 : Fin S1000x1.rank) ∈ dot_S512x1000_S1000x1_S512x1_1_0_0_1_n_n.rhsBatch by decide), dif_pos (show (1 : Fin S1000x1.rank) ∈ dot_S512x1000_S1000x1_S512x1_1_0_0_1_n_n.rhsNonContracting by decide)]
  rfl

/-- The 512 × 1 product at `(p, c)`: row `p` of the left operand against column `c` of the right. -/
theorem mmsq_apply (lhs : FVec Ideal S512x1000 .f32) (rhs : FVec Ideal S1000x1 .f32) (p : Fin 512) (c : Fin 1) :
    matmul dot_S512x1000_S1000x1_S512x1_1_0_0_1_n_n none lhs rhs (constant (F := Ideal) S512x1 .f32 0x00000000#32) (ix2 p c)
      = ∑ k : Fin 1000, lhs (ix2 p k) * rhs (ix2 k c) :=
  matmul_ix2_apply dot_S512x1000_S1000x1_S512x1_1_0_0_1_n_n rfl rfl lhs_mmsq_0 lhs_mmsq_1 rhs_mmsq_0 rhs_mmsq_1 lhs rhs p c

/-! ### The first layer: 512 × 64 by 64 × 128 -/

/-- The left operand's row coordinate is the output's row. -/
theorem lhs_mmh1_0 (i : S512x128.Idx) (q : dot_S512x64_S64x128_S512x128_1_0_0_1_n_n.contr.Idx) :
    (dot_S512x64_S64x128_S512x128_1_0_0_1_n_n.lhsIdx i q 0).val = (i 0).val := by
  unfold DotDims.lhsIdx
  rw [dif_neg (show ¬(0 : Fin S512x64.rank) ∈ dot_S512x64_S64x128_S512x128_1_0_0_1_n_n.lhsBatch by decide), dif_pos (show (0 : Fin S512x64.rank) ∈ dot_S512x64_S64x128_S512x128_1_0_0_1_n_n.lhsNonContracting by decide)]
  rfl
/-- The left operand's column coordinate is the shared index. -/
theorem lhs_mmh1_1 (i : S512x128.Idx) (q : dot_S512x64_S64x128_S512x128_1_0_0_1_n_n.contr.Idx) :
    (dot_S512x64_S64x128_S512x128_1_0_0_1_n_n.lhsIdx i q 1).val = (q ⟨0, by decide⟩).val :=
  dot_S512x64_S64x128_S512x128_1_0_0_1_n_n.lhsIdx_val_of_single rfl i q
/-- The right operand's row coordinate is the shared index. -/
theorem rhs_mmh1_0 (i : S512x128.Idx) (q : dot_S512x64_S64x128_S512x128_1_0_0_1_n_n.contr.Idx) :
    (dot_S512x64_S64x128_S512x128_1_0_0_1_n_n.rhsIdx i q 0).val = (q ⟨0, by decide⟩).val :=
  dot_S512x64_S64x128_S512x128_1_0_0_1_n_n.rhsIdx_val_of_single rfl i q
/-- The right operand's column coordinate is the output's column. -/
theorem rhs_mmh1_1 (i : S512x128.Idx) (q : dot_S512x64_S64x128_S512x128_1_0_0_1_n_n.contr.Idx) :
    (dot_S512x64_S64x128_S512x128_1_0_0_1_n_n.rhsIdx i q 1).val = (i 1).val := by
  unfold DotDims.rhsIdx
  rw [dif_neg (show ¬(1 : Fin S64x128.rank) ∈ dot_S512x64_S64x128_S512x128_1_0_0_1_n_n.rhsBatch by decide), dif_pos (show (1 : Fin S64x128.rank) ∈ dot_S512x64_S64x128_S512x128_1_0_0_1_n_n.rhsNonContracting by decide)]
  rfl

/-- The 512 × 128 product at `(p, c)`: row `p` of the left operand against column `c` of the right. -/
theorem mmh1_apply (lhs : FVec Ideal S512x64 .f32) (rhs : FVec Ideal S64x128 .f32) (p : Fin 512) (c : Fin 128) :
    matmul dot_S512x64_S64x128_S512x128_1_0_0_1_n_n none lhs rhs (constant (F := Ideal) S512x128 .f32 0x00000000#32) (ix2 p c)
      = ∑ k : Fin 64, lhs (ix2 p k) * rhs (ix2 k c) :=
  matmul_ix2_apply dot_S512x64_S64x128_S512x128_1_0_0_1_n_n rfl rfl lhs_mmh1_0 lhs_mmh1_1 rhs_mmh1_0 rhs_mmh1_1 lhs rhs p c

/-! ### The second layer: 512 × 128 by 128 × 64 -/

/-- The left operand's row coordinate is the output's row. -/
theorem lhs_mmh2_0 (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
/-- The left operand's column coordinate is the shared index. -/
theorem lhs_mmh2_1 (i : S512x64.Idx) (q : dot_S512x128_S128x64_S512x64_1_0_0_1_n_n.contr.Idx) :
    (dot_S512x128_S128x64_S512x64_1_0_0_1_n_n.lhsIdx i q 1).val = (q ⟨0, by decide⟩).val :=
  dot_S512x128_S128x64_S512x64_1_0_0_1_n_n.lhsIdx_val_of_single rfl i q
/-- The right operand's row coordinate is the shared index. -/
theorem rhs_mmh2_0 (i : S512x64.Idx) (q : dot_S512x128_S128x64_S512x64_1_0_0_1_n_n.contr.Idx) :
    (dot_S512x128_S128x64_S512x64_1_0_0_1_n_n.rhsIdx i q 0).val = (q ⟨0, by decide⟩).val :=
  dot_S512x128_S128x64_S512x64_1_0_0_1_n_n.rhsIdx_val_of_single rfl i q
/-- The right operand's column coordinate is the output's column. -/
theorem rhs_mmh2_1 (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

/-- The 512 × 64 product at `(p, c)`: row `p` of the left operand against column `c` of the right. -/
theorem mmh2_apply (lhs : FVec Ideal S512x128 .f32) (rhs : FVec Ideal S128x64 .f32) (p : Fin 512) (c : Fin 64) :
    matmul dot_S512x128_S128x64_S512x64_1_0_0_1_n_n none lhs rhs (constant (F := Ideal) S512x64 .f32 0x00000000#32) (ix2 p c)
      = ∑ k : Fin 128, lhs (ix2 p k) * rhs (ix2 k c) :=
  matmul_ix2_apply dot_S512x128_S128x64_S512x64_1_0_0_1_n_n rfl rfl lhs_mmh2_0 lhs_mmh2_1 rhs_mmh2_0 rhs_mmh2_1 lhs rhs p c

/-! ### The output layer: 512 × 64 by 64 × 1 -/

/-- The left operand's row coordinate is the output's row. -/
theorem lhs_mmout_0 (i : S512x1.Idx) (q : dot_S512x64_S64x1_S512x1_1_0_0_1_n_n.contr.Idx) :
    (dot_S512x64_S64x1_S512x1_1_0_0_1_n_n.lhsIdx i q 0).val = (i 0).val := by
  unfold DotDims.lhsIdx
  rw [dif_neg (show ¬(0 : Fin S512x64.rank) ∈ dot_S512x64_S64x1_S512x1_1_0_0_1_n_n.lhsBatch by decide), dif_pos (show (0 : Fin S512x64.rank) ∈ dot_S512x64_S64x1_S512x1_1_0_0_1_n_n.lhsNonContracting by decide)]
  rfl
/-- The left operand's column coordinate is the shared index. -/
theorem lhs_mmout_1 (i : S512x1.Idx) (q : dot_S512x64_S64x1_S512x1_1_0_0_1_n_n.contr.Idx) :
    (dot_S512x64_S64x1_S512x1_1_0_0_1_n_n.lhsIdx i q 1).val = (q ⟨0, by decide⟩).val :=
  dot_S512x64_S64x1_S512x1_1_0_0_1_n_n.lhsIdx_val_of_single rfl i q
/-- The right operand's row coordinate is the shared index. -/
theorem rhs_mmout_0 (i : S512x1.Idx) (q : dot_S512x64_S64x1_S512x1_1_0_0_1_n_n.contr.Idx) :
    (dot_S512x64_S64x1_S512x1_1_0_0_1_n_n.rhsIdx i q 0).val = (q ⟨0, by decide⟩).val :=
  dot_S512x64_S64x1_S512x1_1_0_0_1_n_n.rhsIdx_val_of_single rfl i q
/-- The right operand's column coordinate is the output's column. -/
theorem rhs_mmout_1 (i : S512x1.Idx) (q : dot_S512x64_S64x1_S512x1_1_0_0_1_n_n.contr.Idx) :
    (dot_S512x64_S64x1_S512x1_1_0_0_1_n_n.rhsIdx i q 1).val = (i 1).val := by
  unfold DotDims.rhsIdx
  rw [dif_neg (show ¬(1 : Fin S64x1.rank) ∈ dot_S512x64_S64x1_S512x1_1_0_0_1_n_n.rhsBatch by decide), dif_pos (show (1 : Fin S64x1.rank) ∈ dot_S512x64_S64x1_S512x1_1_0_0_1_n_n.rhsNonContracting by decide)]
  rfl

/-- The 512 × 1 product at `(p, c)`: row `p` of the left operand against column `c` of the right. -/
theorem mmout_apply (lhs : FVec Ideal S512x64 .f32) (rhs : FVec Ideal S64x1 .f32) (p : Fin 512) (c : Fin 1) :
    matmul dot_S512x64_S64x1_S512x1_1_0_0_1_n_n none lhs rhs (constant (F := Ideal) S512x1 .f32 0x00000000#32) (ix2 p c)
      = ∑ k : Fin 64, lhs (ix2 p k) * rhs (ix2 k c) :=
  matmul_ix2_apply dot_S512x64_S64x1_S512x1_1_0_0_1_n_n rfl rfl lhs_mmout_0 lhs_mmout_1 rhs_mmout_0 rhs_mmout_1 lhs rhs p c

/-! ## The three readings of the block product -/

/-- Column `e < 64` of the block product at row `p` is the row's embedding entry `e`. -/
theorem col_lt_apply (v0 : Vec Ideal S1000x64 .f32) (v6 : Vec Ideal S1000x1 .f32) (v9 : Vec Ideal S512x1000 .f32) (p : Fin 512) (e : Fin 64)
    (c : Fin 66) (hc : c.val = e.val) :
    k0_pay2 (F := Ideal) v0 v6 v9 (ix2 p c) = Cert.DeepFM.emb (fun n => v9 (ix2 p n)) (fun n e => v0 (ix2 n e)) e := by
  unfold k0_pay2 Cert.DeepFM.emb
  refine (mm66_apply _ _ p c).trans ?_
  refine Finset.sum_congr rfl fun n _ => ?_
  exact congrArg (v9 (ix2 p n) * ·) (concat_apply_lt v0 _ _ n c e hc)

/-- Column 64 of the block product at row `p` is the row's first-order term. -/
theorem col64_apply (v0 : Vec Ideal S1000x64 .f32) (v6 : Vec Ideal S1000x1 .f32) (v9 : Vec Ideal S512x1000 .f32) (p : Fin 512)
    (c : Fin 66) (hc : c.val = 64) :
    k0_pay2 (F := Ideal) v0 v6 v9 (ix2 p c) = Cert.DeepFM.lin (fun n => v9 (ix2 p n)) (fun n => v6 (ix2 n 0)) := by
  unfold k0_pay2 Cert.DeepFM.lin
  refine (mm66_apply _ _ p c).trans ?_
  refine Finset.sum_congr rfl fun n _ => ?_
  refine congrArg (v9 (ix2 p n) * ·) ((concat_apply_64 v0 _ _ n c hc).trans ?_)
  exact congrFun (shapeCast_self v6 shapeCasts_S1000x1_S1000x1) (ix2 n (0 : Fin 1))

/-- Column 65 of the block product at row `p` is the row contracted with the factor matrix's row sums. -/
theorem col65_apply (v0 : Vec Ideal S1000x64 .f32) (v6 : Vec Ideal S1000x1 .f32) (v9 : Vec Ideal S512x1000 .f32) (p : Fin 512)
    (c : Fin 66) (hc : c.val = 65) :
    k0_pay2 (F := Ideal) v0 v6 v9 (ix2 p c) = Cert.DeepFM.esumRows (fun n => v9 (ix2 p n)) (fun n e => v0 (ix2 n e)) := by
  unfold k0_pay2 Cert.DeepFM.esumRows
  refine (mm66_apply _ _ p c).trans ?_
  refine Finset.sum_congr rfl fun n _ => ?_
  refine congrArg (v9 (ix2 p n) * ·) ((concat_apply_65 v0 _ _ n c hc).trans ?_)
  exact rowsum_apply v0 n

/-! ## The slices of the block product, and the squared product -/

/-- The stored linear column at row `r`: the row's first-order term. -/
theorem pay3_apply (v0 : Vec Ideal S1000x64 .f32) (v6 : Vec Ideal S1000x1 .f32) (v9 : Vec Ideal S512x1000 .f32) (r : Fin 512) :
    k0_pay3 (F := Ideal) v0 v6 v9 (ix2 r (0 : Fin 1)) = Cert.DeepFM.lin (fun n => v9 (ix2 r n)) (fun n => v6 (ix2 n 0)) := by
  unfold k0_pay3
  refine (slice2_axis1_apply 64 (k0_pay2 (F := Ideal) v0 v6 v9) slices_S512x66_o0_64_S512x1 r (0 : Fin 1) (⟨64, by omega⟩ : Fin 66) rfl).trans ?_
  exact col64_apply v0 v6 v9 r _ rfl

/-- The stored column 65 at row `r`: the row contracted with the factor matrix's row sums. -/
theorem pay4_apply (v0 : Vec Ideal S1000x64 .f32) (v6 : Vec Ideal S1000x1 .f32) (v9 : Vec Ideal S512x1000 .f32) (r : Fin 512) :
    k0_pay4 (F := Ideal) v0 v6 v9 (ix2 r (0 : Fin 1)) = Cert.DeepFM.esumRows (fun n => v9 (ix2 r n)) (fun n e => v0 (ix2 n e)) := by
  unfold k0_pay4
  refine (slice2_axis1_apply 65 (k0_pay2 (F := Ideal) v0 v6 v9) slices_S512x66_o0_65_S512x1 r (0 : Fin 1) (⟨65, by omega⟩ : Fin 66) rfl).trans ?_
  exact col65_apply v0 v6 v9 r _ rfl

/-- The squared block against the row sums of the squared factors, at row `r`. -/
theorem pay5_apply (v0 : Vec Ideal S1000x64 .f32) (v9 : Vec Ideal S512x1000 .f32) (r : Fin 512) :
    k0_pay5 (F := Ideal) v0 v9 (ix2 r (0 : Fin 1)) = Cert.DeepFM.sqRows (fun n => v9 (ix2 r n)) (fun n e => v0 (ix2 n e)) := by
  unfold k0_pay5 Cert.DeepFM.sqRows
  refine (mmsq_apply _ _ r (0 : Fin 1)).trans ?_
  refine Finset.sum_congr rfl fun n _ => ?_
  exact congrArg ((v9 (ix2 r n) * v9 (ix2 r n)) * ·) (rowsum_apply (mulf v0 v0) n)

/-! ## The two rectified layers -/

/-- The first layer at `(r, j)`: the row of `em` against column `j` of the weights, plus the bias, clipped below at zero. -/
theorem layer1_apply (em : FVec Ideal S512x64 .f32) (v16 : FVec Ideal S64x128 .f32) (v19 : FVec Ideal S1x128 .f32) (r : Fin 512) (j : Fin 128) :
    maximumf (addf (matmul dot_S512x64_S64x128_S512x128_1_0_0_1_n_n none em (shapeCast S64x128 v16 shapeCasts_S64x128_S64x128) (constant (F := Ideal) S512x128 .f32 0x00000000#32))
        (broadcastTo S512x128 (shapeCast S1x128 v19 shapeCasts_S1x128_S1x128) broadcasts_S1x128_S512x128))
      (broadcast S512x128 (Scalar.ofBits (F := Ideal) .f32 0x00000000#32)) (ix2 r j)
    = max ((∑ e : Fin 64, em (ix2 r e) * v16 (ix2 e j)) + v19 (ix2 (0 : Fin 1) j)) 0 := by
  have e1 := (mmh1_apply em (shapeCast S64x128 v16 shapeCasts_S64x128_S64x128) r j).trans
    (Finset.sum_congr rfl fun e _ => congrArg (em (ix2 r e) * ·) (congrFun (shapeCast_self v16 shapeCasts_S64x128_S64x128) (ix2 e j)))
  have e2 := (broadcastTo_1b_ab_apply (shapeCast S1x128 v19 shapeCasts_S1x128_S1x128) broadcasts_S1x128_S512x128 r j).trans
    (congrFun (shapeCast_self v19 shapeCasts_S1x128_S1x128) (ix2 (0 : Fin 1) j))
  exact congrArg₂ max (congrArg₂ (· + ·) e1 e2) Ideal.ofBits_zero_f32

/-- The second layer at `(r, k)`: the row of `h1` against column `k` of the weights, plus the bias, clipped below at zero. -/
theorem layer2_apply (h1 : FVec Ideal S512x128 .f32) (v25 : FVec Ideal S128x64 .f32) (v28 : FVec Ideal S1x64 .f32) (r : Fin 512) (k : Fin 64) :
    maximumf (addf (matmul dot_S512x128_S128x64_S512x64_1_0_0_1_n_n none h1 (shapeCast S128x64 v25 shapeCasts_S128x64_S128x64) (constant (F := Ideal) S512x64 .f32 0x00000000#32))
        (broadcastTo S512x64 (shapeCast S1x64 v28 shapeCasts_S1x64_S1x64) broadcasts_S1x64_S512x64))
      (broadcast S512x64 (Scalar.ofBits (F := Ideal) .f32 0x00000000#32)) (ix2 r k)
    = max ((∑ j : Fin 128, h1 (ix2 r j) * v25 (ix2 j k)) + v28 (ix2 (0 : Fin 1) k)) 0 := by
  have e1 := (mmh2_apply h1 (shapeCast S128x64 v25 shapeCasts_S128x64_S128x64) r k).trans
    (Finset.sum_congr rfl fun j _ => congrArg (h1 (ix2 r j) * ·) (congrFun (shapeCast_self v25 shapeCasts_S128x64_S128x64) (ix2 j k)))
  have e2 := (broadcastTo_1b_ab_apply (shapeCast S1x64 v28 shapeCasts_S1x64_S1x64) broadcasts_S1x64_S512x64 r k).trans
    (congrFun (shapeCast_self v28 shapeCasts_S1x64_S1x64) (ix2 (0 : Fin 1) k))
  exact congrArg₂ max (congrArg₂ (· + ·) e1 e2) Ideal.ofBits_zero_f32
/-- The stored second hidden layer at `(r, k)`: entry `k` of the row's second hidden layer. -/
theorem pay6_apply (v0 : Vec Ideal S1000x64 .f32) (v6 : Vec Ideal S1000x1 .f32) (v9 : Vec Ideal S512x1000 .f32)
    (v16 : Vec Ideal S64x128 .f32) (v19 : Vec Ideal S1x128 .f32) (v25 : Vec Ideal S128x64 .f32) (v28 : Vec Ideal S1x64 .f32)
    (r : Fin 512) (k : Fin 64) :
    k0_pay6 (F := Ideal) v0 v6 v9 v16 v19 v25 v28 (ix2 r k)
      = Cert.DeepFM.hid2 (fun n => v9 (ix2 r n)) (fun n e => v0 (ix2 n e)) (fun j e => v16 (ix2 e j)) (fun j => v19 (ix2 0 j))
          (fun k j => v25 (ix2 j k)) (fun k => v28 (ix2 0 k)) k := by
  unfold k0_pay6 Cert.DeepFM.hid2
  refine (layer2_apply _ v25 v28 r k).trans ?_
  refine congrArg (fun z => max (z + v28 (ix2 (0 : Fin 1) k)) 0) (Finset.sum_congr rfl fun j _ => ?_)
  refine congrArg (· * v25 (ix2 j k)) ?_
  unfold Cert.DeepFM.hid1
  refine (layer1_apply _ v16 v19 r j).trans ?_
  refine congrArg (fun z => max (z + v19 (ix2 (0 : Fin 1) j)) 0) (Finset.sum_congr rfl fun e _ => ?_)
  refine congrArg (· * v16 (ix2 e j)) ?_
  refine (slice2_axis1_apply 0 (k0_pay2 (F := Ideal) v0 v6 v9) slices_S512x66_o0_0_S512x64 r e (⟨e.val, by omega⟩ : Fin 66)
    (Nat.zero_add _).symm).trans ?_
  exact col_lt_apply v0 v6 v9 r e _ rfl

/-! ## The output layer, the second-order term and the logistic -/

/-- The stored vector at row `r` over ANY four computed operands: one half plus five times the logistic of the first-order
    column plus the linear bias, plus half the square of the third column less the fourth, plus the output layer. -/
theorem tail_apply (v12 v13 v15 : FVec Ideal S512x1 .f32) (v33 : FVec Ideal S512x64 .f32) (v34 : FVec Ideal S64x1 .f32)
    (v37 v41 : FVec Ideal S1x1 .f32) (r : Fin 512) :
    k0_pay1 (F := Ideal) v12 v13 v15 v33 v34 v37 v41 (ix2 r (0 : Fin 1))
      = Cert.DeepFM.half + Ideal.logistic (v12 (ix2 r 0) + v41 (ix2 0 0)
          + Cert.DeepFM.half * (v13 (ix2 r 0) * v13 (ix2 r 0) - v15 (ix2 r 0))
          + ((∑ k : Fin 64, v33 (ix2 r k) * v34 (ix2 k 0)) + v37 (ix2 0 0))) * Cert.DeepFM.five := by
  have e36 := (mmout_apply v33 (shapeCast S64x1 v34 shapeCasts_S64x1_S64x1) r (0 : Fin 1)).trans
    (Finset.sum_congr rfl fun k _ => congrArg (v33 (ix2 r k) * ·) (congrFun (shapeCast_self v34 shapeCasts_S64x1_S64x1) (ix2 k (0 : Fin 1))))
  have e39 := (broadcastTo_1b_ab_apply (shapeCast S1x1 v37 shapeCasts_S1x1_S1x1) broadcasts_S1x1_S512x1 r (0 : Fin 1)).trans
    (congrFun (shapeCast_self v37 shapeCasts_S1x1_S1x1) (ix2 (0 : Fin 1) (0 : Fin 1)))
  have e43 := (broadcastTo_1b_ab_apply (shapeCast S1x1 v41 shapeCasts_S1x1_S1x1) broadcasts_S1x1_S512x1 r (0 : Fin 1)).trans
    (congrFun (shapeCast_self v41 shapeCasts_S1x1_S1x1) (ix2 (0 : Fin 1) (0 : Fin 1)))
  unfold k0_pay1
  refine congrArg (fun z => Cert.DeepFM.half + Ideal.logistic z * Cert.DeepFM.five) ?_
  exact congrArg₂ (· + ·)
    (congrArg (fun z => v12 (ix2 r 0) + z + Cert.DeepFM.half * (v13 (ix2 r 0) * v13 (ix2 r 0) - v15 (ix2 r 0))) e43)
    (congrArg₂ (· + ·) e36 e39)

/-- The body's stored vector at row `r`: from the loaded factor matrix `v0`, linear-weight column `v6`, input block
    `v9`, the transposed layer weights `v16`, `v25`, `v34`, the bias rows `v19`, `v28` and the two scalars `v37`
    (the perceptron's output bias) and `v41` (the linear bias), it is the score of block row `r`. -/
theorem pay_apply (v0 : Vec Ideal S1000x64 .f32) (v6 : Vec Ideal S1000x1 .f32) (v9 : Vec Ideal S512x1000 .f32)
    (v16 : Vec Ideal S64x128 .f32) (v19 : Vec Ideal S1x128 .f32) (v25 : Vec Ideal S128x64 .f32) (v28 : Vec Ideal S1x64 .f32)
    (v34 : Vec Ideal S64x1 .f32) (v37 : Vec Ideal S1x1 .f32) (v41 : Vec Ideal S1x1 .f32) (r : Fin 512) :
    k0_pay1 (F := Ideal) (k0_pay3 v0 v6 v9) (k0_pay4 v0 v6 v9) (k0_pay5 v0 v9) (k0_pay6 v0 v6 v9 v16 v19 v25 v28) v34 v37 v41 (ix2 r 0)
      = Cert.DeepFM.scoreRows (fun n => v9 (ix2 r n)) (fun n => v6 (ix2 n 0)) (v41 (ix2 0 0)) (fun n e => v0 (ix2 n e))
          (fun j e => v16 (ix2 e j)) (fun j => v19 (ix2 0 j)) (fun k j => v25 (ix2 j k)) (fun k => v28 (ix2 0 k))
          (fun k => v34 (ix2 k 0)) (v37 (ix2 0 0)) := by
  have e : (∑ k : Fin 64, k0_pay6 (F := Ideal) v0 v6 v9 v16 v19 v25 v28 (ix2 r k) * v34 (ix2 k 0))
      = ∑ k : Fin 64, Cert.DeepFM.hid2 (fun n => v9 (ix2 r n)) (fun n e => v0 (ix2 n e)) (fun j e => v16 (ix2 e j))
          (fun j => v19 (ix2 0 j)) (fun k j => v25 (ix2 j k)) (fun k => v28 (ix2 0 k)) k * v34 (ix2 k 0) :=
    Finset.sum_congr rfl fun k _ => congrArg (· * v34 (ix2 k 0)) (pay6_apply v0 v6 v9 v16 v19 v25 v28 r k)
  rw [tail_apply, pay3_apply, pay4_apply, pay5_apply, e]
  rfl

end Cert.KernelIdeal.RowValue

end
-- ==== Proof.KernelRun.lean ====
/-
  The kernel's run, read as values: after every weakly fair execution the result array holds, at entry `b`,
  the DeepFM score of input row `b` (second-order sums taken rows outermost), and the arguments are unchanged.

  Grid point `t` writes back rows 512·t … 512·t + 511 of the 4096 × 1 array the region produces; the eight
  blocks tile that array, so after the run it is one function of the arguments; the host line after the region
  re-lays it as a vector of 4096 entries.
-/
import proofs.«109720_g84026740179138_cont_9to1c4b_688_2_alg».proof.Proof.Blocks
import proofs.«109720_g84026740179138_cont_9to1c4b_688_2_alg».proof.Proof.RowValue
import proofs.«109720_g84026740179138_cont_9to1c4b_688_2_alg».proof.Proof.Whole

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem off_zero : (![0, 0] : Fin 2 → Nat) = fun _ => 0 := funext fun a => by fin_cases a <;> rfl

/-- The row of the whole input array that row `r` of block `t` is. -/
def rowIdx (t : Fin cfg0.N) (r : Fin 512) : Fin 4096 :=
  ⟨t.val * 512 + r.val, by have ht : t.val < 8 := lt_of_lt_of_eq t.isLt N_0; have := r.isLt; omega⟩

/-- The result vector as a function of the launched arguments on core `c`. -/
abbrev Res (c : Dev nD) : S4096.Idx → EReal :=
  Cert.DeepFM.GRows (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))

/-- The 4096 × 1 array the region leaves: entry (b, 0) is entry `b` of the result. -/
def Out (c : Dev nD) : S4096x1.Idx → EReal := fun i => Res m c (ix1 (i 0))

/-! ## Each window's block, entry by entry, in the launched arguments -/

/-- Row `r` of input block `t` is row 512·t + r of the input array. -/
theorem blk_x (c : Dev nD) (t : Fin cfg0.N) (r : Fin 512) (n : Fin 1000) :
    (iblk m c 0 t : S512x1000.Idx → EReal) (ix2 r n) = ((m ((c : Thread nD τ).loc main_arg0)) : S4096x1000.Idx → EReal) (ix2 (rowIdx t r) n) := by
  obtain ⟨e0, e1, -⟩ := idx_facts t
  have he : ((cfg0.win 0).blk t).view.emb (ix2 r n) = (ix2 (rowIdx t r) n) := funext fun a => Fin.ext (by
    match a with
    | ⟨0, _⟩ => show win0_0.index t (0 : Fin 2) * 512 + 1 * r.val = t.val * 512 + r.val; omega
    | ⟨1, _⟩ => show win0_0.index t (1 : Fin 2) * 1000 + 1 * n.val = n.val; omega)
  show (V m c main_arg0 : S4096x1000.Idx → EReal) (((cfg0.win 0).blk t).view.emb (ix2 r n)) = _
  rw [he]
  exact congrFun (V_main_arg0 m c) _

/-- The factor matrix is staged whole. -/
theorem blk_F (c : Dev nD) (t : Fin cfg0.N) (n : Fin 1000) (e : Fin 64) :
    (iblk m c 1 t : S1000x64.Idx → EReal) (ix2 n e) = ((m ((c : Thread nD τ).loc main_arg3)) : S1000x64.Idx → EReal) (ix2 n e) := by
  obtain ⟨-, -, -, -, f10, f11, f20, f21, f30, f31, f40, f41, f50, f51, f60, f61, f70, f71, f80, f81, f90, f91⟩ := idx_facts t
  have he : ((cfg0.win 1).blk t).view.emb (ix2 n e) = (ix2 n e) := funext fun a => Fin.ext (by
    match a with
    | ⟨0, _⟩ => show win0_1.index t (0 : Fin 2) * 1000 + 1 * n.val = n.val; omega
    | ⟨1, _⟩ => show win0_1.index t (1 : Fin 2) * 64 + 1 * e.val = e.val; omega)
  show (V m c main_arg3 : S1000x64.Idx → EReal) (((cfg0.win 1).blk t).view.emb (ix2 n e)) = _
  rw [he]
  exact congrFun (V_main_arg3 m c) _

/-- The linear-weight column is staged whole. -/
theorem blk_wl (c : Dev nD) (t : Fin cfg0.N) (n : Fin 1000) :
    (iblk m c 2 t : S1000x1.Idx → EReal) (ix2 n 0) = ((m ((c : Thread nD τ).loc main_arg1)) : S1x1000.Idx → EReal) (ix2 0 n) := by
  obtain ⟨-, -, -, -, f10, f11, f20, f21, f30, f31, f40, f41, f50, f51, f60, f61, f70, f71, f80, f81, f90, f91⟩ := idx_facts t
  have he : ((cfg0.win 2).blk t).view.emb (ix2 n 0) = (ix2 n 0) := funext fun a => Fin.ext (by
    match a with
    | ⟨0, _⟩ => show win0_2.index t (0 : Fin 2) * 1000 + 1 * n.val = n.val; omega
    | ⟨1, _⟩ => show win0_2.index t (1 : Fin 2) * 1 + 1 * 0 = 0; omega)
  show (V m c main_v0 : S1000x1.Idx → EReal) (((cfg0.win 2).blk t).view.emb (ix2 n 0)) = _
  rw [he]
  exact wl_apply m c n

/-- The linear bias. -/
theorem blk_bl (c : Dev nD) (t : Fin cfg0.N)  :
    (iblk m c 3 t : S1x1.Idx → EReal) (ix2 0 0) = ((m ((c : Thread nD τ).loc main_arg2)) : S1.Idx → EReal) (ix1 0) := by
  obtain ⟨-, -, -, -, f10, f11, f20, f21, f30, f31, f40, f41, f50, f51, f60, f61, f70, f71, f80, f81, f90, f91⟩ := idx_facts t
  have he : ((cfg0.win 3).blk t).view.emb (ix2 0 0) = (ix2 0 0) := funext fun a => Fin.ext (by
    match a with
    | ⟨0, _⟩ => show win0_3.index t (0 : Fin 2) * 1 + 1 * 0 = 0; omega
    | ⟨1, _⟩ => show win0_3.index t (1 : Fin 2) * 1 + 1 * 0 = 0; omega)
  show (V m c main_v1 : S1x1.Idx → EReal) (((cfg0.win 3).blk t).view.emb (ix2 0 0)) = _
  rw [he]
  exact bl_apply m c

/-- The transposed first-layer matrix is staged whole. -/
theorem blk_W1t (c : Dev nD) (t : Fin cfg0.N) (e : Fin 64) (j : Fin 128) :
    (iblk m c 4 t : S64x128.Idx → EReal) (ix2 e j) = ((m ((c : Thread nD τ).loc main_arg4)) : S128x64.Idx → EReal) (ix2 j e) := by
  obtain ⟨-, -, -, -, f10, f11, f20, f21, f30, f31, f40, f41, f50, f51, f60, f61, f70, f71, f80, f81, f90, f91⟩ := idx_facts t
  have he : ((cfg0.win 4).blk t).view.emb (ix2 e j) = (ix2 e j) := funext fun a => Fin.ext (by
    match a with
    | ⟨0, _⟩ => show win0_4.index t (0 : Fin 2) * 64 + 1 * e.val = e.val; omega
    | ⟨1, _⟩ => show win0_4.index t (1 : Fin 2) * 128 + 1 * j.val = j.val; omega)
  show (V m c main_v3 : S64x128.Idx → EReal) (((cfg0.win 4).blk t).view.emb (ix2 e j)) = _
  rw [he]
  exact W1t_apply m c e j

/-- The first-layer bias row. -/
theorem blk_b1 (c : Dev nD) (t : Fin cfg0.N) (j : Fin 128) :
    (iblk m c 5 t : S1x128.Idx → EReal) (ix2 0 j) = ((m ((c : Thread nD τ).loc main_arg5)) : S128.Idx → EReal) (ix1 j) := by
  obtain ⟨-, -, -, -, f10, f11, f20, f21, f30, f31, f40, f41, f50, f51, f60, f61, f70, f71, f80, f81, f90, f91⟩ := idx_facts t
  have he : ((cfg0.win 5).blk t).view.emb (ix2 0 j) = (ix2 0 j) := funext fun a => Fin.ext (by
    match a with
    | ⟨0, _⟩ => show win0_5.index t (0 : Fin 2) * 1 + 1 * 0 = 0; omega
    | ⟨1, _⟩ => show win0_5.index t (1 : Fin 2) * 128 + 1 * j.val = j.val; omega)
  show (V m c main_v4 : S1x128.Idx → EReal) (((cfg0.win 5).blk t).view.emb (ix2 0 j)) = _
  rw [he]
  exact b1_apply m c j

/-- The transposed second-layer matrix is staged whole. -/
theorem blk_W2t (c : Dev nD) (t : Fin cfg0.N) (j : Fin 128) (k : Fin 64) :
    (iblk m c 6 t : S128x64.Idx → EReal) (ix2 j k) = ((m ((c : Thread nD τ).loc main_arg6)) : S64x128.Idx → EReal) (ix2 k j) := by
  obtain ⟨-, -, -, -, f10, f11, f20, f21, f30, f31, f40, f41, f50, f51, f60, f61, f70, f71, f80, f81, f90, f91⟩ := idx_facts t
  have he : ((cfg0.win 6).blk t).view.emb (ix2 j k) = (ix2 j k) := funext fun a => Fin.ext (by
    match a with
    | ⟨0, _⟩ => show win0_6.index t (0 : Fin 2) * 128 + 1 * j.val = j.val; omega
    | ⟨1, _⟩ => show win0_6.index t (1 : Fin 2) * 64 + 1 * k.val = k.val; omega)
  show (V m c main_v5 : S128x64.Idx → EReal) (((cfg0.win 6).blk t).view.emb (ix2 j k)) = _
  rw [he]
  exact W2t_apply m c j k

/-- The second-layer bias row. -/
theorem blk_b2 (c : Dev nD) (t : Fin cfg0.N) (k : Fin 64) :
    (iblk m c 7 t : S1x64.Idx → EReal) (ix2 0 k) = ((m ((c : Thread nD τ).loc main_arg7)) : S64.Idx → EReal) (ix1 k) := by
  obtain ⟨-, -, -, -, f10, f11, f20, f21, f30, f31, f40, f41, f50, f51, f60, f61, f70, f71, f80, f81, f90, f91⟩ := idx_facts t
  have he : ((cfg0.win 7).blk t).view.emb (ix2 0 k) = (ix2 0 k) := funext fun a => Fin.ext (by
    match a with
    | ⟨0, _⟩ => show win0_7.index t (0 : Fin 2) * 1 + 1 * 0 = 0; omega
    | ⟨1, _⟩ => show win0_7.index t (1 : Fin 2) * 64 + 1 * k.val = k.val; omega)
  show (V m c main_v6 : S1x64.Idx → EReal) (((cfg0.win 7).blk t).view.emb (ix2 0 k)) = _
  rw [he]
  exact b2_apply m c k

/-- The output layer's column. -/
theorem blk_W3t (c : Dev nD) (t : Fin cfg0.N) (k : Fin 64) :
    (iblk m c 8 t : S64x1.Idx → EReal) (ix2 k 0) = ((m ((c : Thread nD τ).loc main_arg8)) : S1x64.Idx → EReal) (ix2 0 k) := by
  obtain ⟨-, -, -, -, f10, f11, f20, f21, f30, f31, f40, f41, f50, f51, f60, f61, f70, f71, f80, f81, f90, f91⟩ := idx_facts t
  have he : ((cfg0.win 8).blk t).view.emb (ix2 k 0) = (ix2 k 0) := funext fun a => Fin.ext (by
    match a with
    | ⟨0, _⟩ => show win0_8.index t (0 : Fin 2) * 64 + 1 * k.val = k.val; omega
    | ⟨1, _⟩ => show win0_8.index t (1 : Fin 2) * 1 + 1 * 0 = 0; omega)
  show (V m c main_v7 : S64x1.Idx → EReal) (((cfg0.win 8).blk t).view.emb (ix2 k 0)) = _
  rw [he]
  exact W3t_apply m c k

/-- The output layer's bias. -/
theorem blk_b3 (c : Dev nD) (t : Fin cfg0.N)  :
    (iblk m c 9 t : S1x1.Idx → EReal) (ix2 0 0) = ((m ((c : Thread nD τ).loc main_arg9)) : S1.Idx → EReal) (ix1 0) := by
  obtain ⟨-, -, -, -, f10, f11, f20, f21, f30, f31, f40, f41, f50, f51, f60, f61, f70, f71, f80, f81, f90, f91⟩ := idx_facts t
  have he : ((cfg0.win 9).blk t).view.emb (ix2 0 0) = (ix2 0 0) := funext fun a => Fin.ext (by
    match a with
    | ⟨0, _⟩ => show win0_9.index t (0 : Fin 2) * 1 + 1 * 0 = 0; omega
    | ⟨1, _⟩ => show win0_9.index t (1 : Fin 2) * 1 + 1 * 0 = 0; omega)
  show (V m c main_v2 : S1x1.Idx → EReal) (((cfg0.win 9).blk t).view.emb (ix2 0 0)) = _
  rw [he]
  exact b3_apply m c

/-! ## What a point writes back -/

/-- Point `t` writes back block `t` of `Out`: its row `r` is the score of input row 512·t + r. -/
theorem flushed_eq (c : Dev nD) (t : Fin cfg0.N) :
    (dats m 0 c).flushed 10 t = ((cfg0.win 10).blk t).view.read (Elt Ideal) (Out m c) := by
  show (cfg0.win 10).cut (grid0.coords t) ((dats m 0 c).after 10 t) = _
  rw [after0_10]
  unfold out0_10
  rw [View.canon_unit_zero off_zero]
  simp only [View.ld_unit_zero (S := S1000x64) off_zero, View.ld_unit_zero (S := S1000x1) off_zero,
    View.ld_unit_zero (S := S512x1000) off_zero, View.ld_unit_zero (S := S64x128) off_zero,
    View.ld_unit_zero (S := S1x128) off_zero, View.ld_unit_zero (S := S128x64) off_zero,
    View.ld_unit_zero (S := S1x64) off_zero, View.ld_unit_zero (S := S64x1) off_zero,
    View.ld_unit_zero (S := S1x1) off_zero]
  funext j
  obtain ⟨r, q, rfl⟩ : ∃ (r : Fin 512) (q : Fin 1), j = ix2 r q := ⟨j 0, j 1, eq_ix2 j⟩
  obtain rfl : q = 0 := Subsingleton.elim _ _
  have hemb : ((cfg0.win 10).blk t).view.emb (ix2 r 0) = ix2 (rowIdx t r) 0 := by
    obtain ⟨-, -, e2, e3, -⟩ := idx_facts t
    exact funext fun a => Fin.ext (by
      match a with
      | ⟨0, _⟩ => show win0_10.index t (0 : Fin 2) * 512 + 1 * r.val = t.val * 512 + r.val; omega
      | ⟨1, _⟩ => show win0_10.index t (1 : Fin 2) * 1 + 1 * 0 = 0; omega)
  refine (RowValue.pay_apply (iblk m c 1 t) (iblk m c 2 t) (iblk m c 0 t) (iblk m c 4 t) (iblk m c 5 t) (iblk m c 6 t)
    (iblk m c 7 t) (iblk m c 8 t) (iblk m c 9 t) (iblk m c 3 t) r).trans ?_
  show _ = Out m c (((cfg0.win 10).blk t).view.emb (ix2 r 0))
  rw [hemb]
  simp only [blk_x m c t, blk_F m c t, blk_wl m c t, blk_bl m c t, blk_W1t m c t, blk_b1 m c t, blk_W2t m c t,
    blk_b2 m c t, blk_W3t m c t, blk_b3 m c t]
  rfl

/-! ## The array after the run -/

/-- An index of the 4096 × 1 array is in point `t`'s block iff each coordinate is in the block's range on its axis. -/
theorem mem_blk (t : Fin cfg0.N) (i : S4096x1.Idx) :
    i ∈ ((cfg0.win 10).blk t).view.set ↔ ∀ a : Fin 2, win0_10.index t a * S512x1.size a ≤ (i a).val ∧ (i a).val < win0_10.index t a * S512x1.size a + S512x1.size a := by
  show i ∈ ((View.whole main_v8).slice (win0_10.rect t)).set ↔ _
  rw [View.set_slice_whole, Rect.mem_set_unit]
  exact Iff.rfl

/-- Every row `b` lies in the block of point `b / 512`, which writes back. -/
theorem cover (i : S4096x1.Idx) :
    ∃ t : Fin cfg0.N, (cfg0.win 10).flush t = true ∧ i ∈ ((cfg0.win 10).blk t).view.set := by
  have hi0 : (i 0).val < 4096 := (i 0).isLt
  have hi1 : (i 1).val < 1 := (i 1).isLt
  have hN : cfg0.N = 8 := N_0
  let t : Fin cfg0.N := ⟨(i 0).val / 512, by rw [hN]; omega⟩
  have ht : t.val = (i 0).val / 512 := rfl
  obtain ⟨-, -, e2, e3, -⟩ := idx_facts t
  refine ⟨t, flush0_10 t, ?_⟩
  rw [mem_blk]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 1 ≤ (i 1).val ∧ (i 1).val < win0_10.index t (1 : Fin 2) * 1 + 1; omega

/-- After the run the region's array is `Out`: the eight blocks tile it. -/
theorem final (c : Dev nD) : (dats m 0 c).arrAt 10 cfg0.N = Out m c :=
  (dats m 0 c).arrAt_eq_of_cover 10 (Out m c) (fun t _ => flushed_eq m c t) cover

/-! ## The host line after the region, and the run -/

/-- The result vector: the region's 4096 × 1 array re-laid as 4096 entries. -/
theorem result_eq (c : Dev nD) :
    Pipeline.afterTail₀ cfgs (dats m) 0 (V0 m) [hostOps1] c main_v9 = Res m c := by
  unfold Pipeline.afterTail₀
  show StableHlo.after hostOps1 _ (Proc.devRef .tc main_v9) = _
  after_results
  have hw : Pipeline.withArrays (cfgs 0).spec c (V0 m c) (fun w => (dats m 0 c).arrAt w (cfgs 0).N)
      (Proc.tc.devRef main_v8) = Out m c :=
    (Pipeline.withArrays_arr spec0 launch0.win.arr_inj c _ _ 10).trans (final m c)
  funext i
  obtain ⟨b, rfl⟩ : ∃ b : Fin 4096, i = ix1 b := ⟨i 0, eq_ix1 i⟩
  refine Eq.trans (?_ : _ = shapeCast S4096 (Out m c) shapeCasts_S4096x1_S4096 (ix1 b)) ?_
  · rw [← hw]; rfl
  · exact shapeCast_apply (Out m c) shapeCasts_S4096x1_S4096 (ix1 b) (ix2 b 0) (by
      rewrite [Shape.rowMajor_val_two, Shape.rowMajor_val_one]; show b.val * 1 + 0 = b.val; omega)

/-- THE KERNEL'S RUN: every weakly fair execution terminates with the result vector at `Res` — entry `b` the
    score of input row `b` — and the ten arguments as launched. -/
theorem run : θ_run defs (onTc (τ := τ) (main (F := Ideal))) ⟨m, fun _ => 0, ρ⟩ fun r => ∀ c : Dev nD,
      r.2.mem ((c.tc : Thread nD τ).loc main_v9) = Res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).2 main_v9 (Pipeline.mem_restRefs_of main_v9 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 1).trans (((dats m 0 c).arrAt_in 1 rfl _).trans ((A_eq m c 1).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.RunValue

end
-- ==== Proof.RefSide.lean ====
/-
  The reference program's result, stage by stage, is the whole-array score function `Cert.DeepFM.G`.
-/
import proofs.«109720_g84026740179138_cont_9to1c4b_688_2_alg».proof.Proof.Gen.ReferenceIdeal.Run
import proofs.«109720_g84026740179138_cont_9to1c4b_688_2_alg».proof.Proof.Gen.ReferenceIdeal.Read
import proofs.«109720_g84026740179138_cont_9to1c4b_688_2_alg».proof.Proof.Whole
import Idealize.ShloMosaic.Lib.IdealHost

noncomputable section

namespace Cert.ReferenceIdeal.RefValue

open Cert.ReferenceIdeal Cert.ReferenceIdeal.Read Idealize.ShloMosaic Idealize.ShloMosaic.ValueIdx

section Stages

variable (x0 : (⟨S4096x1000, .f32⟩ : BufTy).Contents (Elt Ideal)) (x1 : (⟨S1x1000, .f32⟩ : BufTy).Contents (Elt Ideal))
  (x2 : (⟨S1, .f32⟩ : BufTy).Contents (Elt Ideal)) (x3 : (⟨S1000x64, .f32⟩ : BufTy).Contents (Elt Ideal))
  (x4 : (⟨S128x64, .f32⟩ : BufTy).Contents (Elt Ideal)) (x5 : (⟨S128, .f32⟩ : BufTy).Contents (Elt Ideal))
  (x6 : (⟨S64x128, .f32⟩ : BufTy).Contents (Elt Ideal)) (x7 : (⟨S64, .f32⟩ : BufTy).Contents (Elt Ideal))
  (x8 : (⟨S1x64, .f32⟩ : BufTy).Contents (Elt Ideal)) (x9 : (⟨S1, .f32⟩ : BufTy).Contents (Elt Ideal))

/-! ## Where each stage reads its operands

Each contraction, reduction, transposition and broadcast reads its operand at an index computed from the result's
index; at a result index given by its coordinates these are again indices given by coordinates. A transposed weight
matrix is read back at the swapped pair, so every weight is read as it is stored. -/

/-- The first-order contraction reads row `b` of the input at column `k`. -/
theorem lidx1 (b : Fin 4096) (k : Fin 1000) : lidx_main_v1 (ix2 b (0 : Fin 1)) k = ix2 b k :=
  funext fun a => Fin.ext (by match a with | ⟨0, _⟩ => rfl | ⟨1, _⟩ => rfl)
/-- The first-order contraction reads the transposed linear weights at `(k, 0)`: entry `(0, k)` as stored. -/
theorem widx1 (b : Fin 4096) (k : Fin 1000) :
    idx_main_v0 (ridx_main_v1 (ix2 b (0 : Fin 1)) k) = ix2 (0 : Fin 1) k :=
  funext fun a => Fin.ext (by match a with | ⟨0, _⟩ => rfl | ⟨1, _⟩ => rfl)
/-- The linear bias, broadcast twice, is read at its one entry. -/
theorem bidx3 (i : S4096x1.Idx) : idx_main_v2 (idx_main_v3 i) = ix1 (0 : Fin 1) :=
  funext fun a => Fin.ext (by match a with | ⟨0, _⟩ => rfl)
/-- The embedding's contraction reads row `b` of the input at column `k`. -/
theorem lidx5 (b : Fin 4096) (e : Fin 64) (k : Fin 1000) : lidx_main_v5 (ix2 b e) k = ix2 b k :=
  funext fun a => Fin.ext (by match a with | ⟨0, _⟩ => rfl | ⟨1, _⟩ => rfl)
/-- The embedding's contraction reads the factor matrix at row `k`, column `e`. -/
theorem ridx5 (b : Fin 4096) (e : Fin 64) (k : Fin 1000) : ridx_main_v5 (ix2 b e) k = ix2 k e :=
  funext fun a => Fin.ext (by match a with | ⟨0, _⟩ => rfl | ⟨1, _⟩ => rfl)
/-- The sum of the embedding's entries reads entry `(b, k)`. -/
theorem idx6 (b : Fin 4096) (k : Fin 64) : idx_main_v6 (ix1 b) k = ix2 b k :=
  funext fun a => Fin.ext (by match a with | ⟨0, _⟩ => rfl | ⟨1, _⟩ => rfl)
/-- The contraction of squares reads row `b` of the squared input at column `n`. -/
theorem lidx10 (b : Fin 4096) (e : Fin 64) (n : Fin 1000) : lidx_main_v10 (ix2 b e) n = ix2 b n :=
  funext fun a => Fin.ext (by match a with | ⟨0, _⟩ => rfl | ⟨1, _⟩ => rfl)
/-- The contraction of squares reads the squared factor matrix at row `n`, column `e`. -/
theorem ridx10 (b : Fin 4096) (e : Fin 64) (n : Fin 1000) : ridx_main_v10 (ix2 b e) n = ix2 n e :=
  funext fun a => Fin.ext (by match a with | ⟨0, _⟩ => rfl | ⟨1, _⟩ => rfl)
/-- The sum over columns of the contraction of squares reads entry `(b, k)`. -/
theorem idx11 (b : Fin 4096) (k : Fin 64) : idx_main_v11 (ix1 b) k = ix2 b k :=
  funext fun a => Fin.ext (by match a with | ⟨0, _⟩ => rfl | ⟨1, _⟩ => rfl)
/-- The first layer's contraction reads the embedding at `(b, k)`. -/
theorem lidx13 (b : Fin 4096) (j : Fin 128) (k : Fin 64) : lidx_main_v13 (ix2 b j) k = ix2 b k :=
  funext fun a => Fin.ext (by match a with | ⟨0, _⟩ => rfl | ⟨1, _⟩ => rfl)
/-- The first layer's contraction reads the transposed weights at `(k, j)`: entry `(j, k)` as stored. -/
theorem widx13 (b : Fin 4096) (j : Fin 128) (k : Fin 64) :
    idx_main_v12 (ridx_main_v13 (ix2 b j) k) = ix2 j k :=
  funext fun a => Fin.ext (by match a with | ⟨0, _⟩ => rfl | ⟨1, _⟩ => rfl)
/-- The first layer's bias, broadcast twice, is read at entry `j`. -/
theorem bidx15 (b : Fin 4096) (j : Fin 128) : idx_main_v14 (idx_main_v15 (ix2 b j)) = ix1 j :=
  funext fun a => Fin.ext (by match a with | ⟨0, _⟩ => rfl)
/-- The second layer's contraction reads the first hidden layer at `(b, j)`. -/
theorem lidx19 (b : Fin 4096) (k : Fin 64) (j : Fin 128) : lidx_main_v19 (ix2 b k) j = ix2 b j :=
  funext fun a => Fin.ext (by match a with | ⟨0, _⟩ => rfl | ⟨1, _⟩ => rfl)
/-- The second layer's contraction reads the transposed weights at `(j, k)`: entry `(k, j)` as stored. -/
theorem widx19 (b : Fin 4096) (k : Fin 64) (j : Fin 128) :
    idx_main_v18 (ridx_main_v19 (ix2 b k) j) = ix2 k j :=
  funext fun a => Fin.ext (by match a with | ⟨0, _⟩ => rfl | ⟨1, _⟩ => rfl)
/-- The second layer's bias, broadcast twice, is read at entry `k`. -/
theorem bidx21 (b : Fin 4096) (k : Fin 64) : idx_main_v20 (idx_main_v21 (ix2 b k)) = ix1 k :=
  funext fun a => Fin.ext (by match a with | ⟨0, _⟩ => rfl)
/-- The output layer's contraction reads the second hidden layer at `(b, k)`. -/
theorem lidx25 (b : Fin 4096) (k : Fin 64) : lidx_main_v25 (ix2 b (0 : Fin 1)) k = ix2 b k :=
  funext fun a => Fin.ext (by match a with | ⟨0, _⟩ => rfl | ⟨1, _⟩ => rfl)
/-- The output layer's contraction reads the transposed weights at `(k, 0)`: entry `(0, k)` as stored. -/
theorem widx25 (b : Fin 4096) (k : Fin 64) :
    idx_main_v24 (ridx_main_v25 (ix2 b (0 : Fin 1)) k) = ix2 (0 : Fin 1) k :=
  funext fun a => Fin.ext (by match a with | ⟨0, _⟩ => rfl | ⟨1, _⟩ => rfl)
/-- The output layer's bias, broadcast twice, is read at its one entry. -/
theorem bidx27 (i : S4096x1.Idx) : idx_main_v26 (idx_main_v27 i) = ix1 (0 : Fin 1) :=
  funext fun a => Fin.ext (by match a with | ⟨0, _⟩ => rfl)
/-- The second-order difference, made a column, is read at entry `b`. -/
theorem idx30 (b : Fin 4096) : idx_main_v30 (ix2 b (0 : Fin 1)) = ix1 b :=
  funext fun a => Fin.ext (by match a with | ⟨0, _⟩ => rfl)
/-- The result, a column made a vector, is read at `(b, 0)`. -/
theorem idx45 (b : Fin 4096) : idx_main_v45 (ix1 b) = ix2 b (0 : Fin 1) :=
  funext fun a => Fin.ext (by match a with | ⟨0, _⟩ => exact Nat.div_one b.val | ⟨1, _⟩ => rfl)

/-! ## The stages -/

/-- Entry `(b, 0)` of the first-order product is row `b` contracted with the linear weights. -/
theorem lin_eq (b : Fin 4096) :
    val_main_v1 (F := Ideal) x0 x1 (ix2 b (0 : Fin 1))
      = Cert.DeepFM.lin (Cert.DeepFM.rowOf x0 b) (fun n => x1 (ix2 (0 : Fin 1) n)) := by
  unfold Cert.DeepFM.lin
  simp only [val_main_v1_apply, val_main_v0_apply, lidx1, widx1]

/-- Entry `(b, e)` of the product with the factor matrix is entry `e` of row `b`'s embedding. -/
theorem emb_eq (b : Fin 4096) (e : Fin 64) :
    val_main_v5 (F := Ideal) x0 x3 (ix2 b e)
      = Cert.DeepFM.emb (Cert.DeepFM.rowOf x0 b) (fun n e => x3 (ix2 n e)) e := by
  unfold Cert.DeepFM.emb
  simp only [val_main_v5_apply, lidx5, ridx5]

/-- Entry `b` of the row sums of the embedding is the sum of row `b`'s embedding, the zero initial value dropped. -/
theorem esum_eq (b : Fin 4096) :
    val_main_v6 (F := Ideal) x0 x3 (ix1 b)
      = Cert.DeepFM.esumCols (Cert.DeepFM.rowOf x0 b) (fun n e => x3 (ix2 n e)) := by
  unfold Cert.DeepFM.esumCols
  simp only [val_main_v6_apply, val_main_cst_apply, idx6, emb_eq, Ideal.ofBits_def, Ideal.ofBits_zero_f32, zero_add]

/-- Entry `b` of the row sums of the squares' product is the double sum of squared products, columns outermost. -/
theorem sq_eq (b : Fin 4096) :
    val_main_v11 (F := Ideal) x0 x3 (ix1 b)
      = Cert.DeepFM.sqCols (Cert.DeepFM.rowOf x0 b) (fun n e => x3 (ix2 n e)) := by
  unfold Cert.DeepFM.sqCols
  simp only [val_main_v11_apply, val_main_cst_0_apply, idx11, val_main_v10_apply, lidx10, ridx10, val_main_v8_apply,
    val_main_v9_apply, Ideal.mulf_def, Ideal.ofBits_def, Ideal.ofBits_zero_f32, zero_add]

/-- Entry `(b, j)` after the first clipping is unit `j` of row `b`'s first hidden layer. -/
theorem hid1_eq (b : Fin 4096) (j : Fin 128) :
    val_main_v17 (F := Ideal) x0 x3 x4 x5 (ix2 b j)
      = Cert.DeepFM.hid1 (Cert.DeepFM.rowOf x0 b) (fun n e => x3 (ix2 n e)) (fun j e => x4 (ix2 j e))
          (fun j => x5 (ix1 j)) j := by
  unfold Cert.DeepFM.hid1
  simp only [val_main_v17_apply, val_main_v16_apply, val_main_v13_apply, val_main_v12_apply, val_main_v15_apply,
    val_main_v14_apply, val_main_call0_v0_apply, val_main_call0_cst_apply, lidx13, widx13, bidx15, emb_eq,
    Ideal.maximumf_def, Ideal.addf_def, Ideal.ofBits_def, Ideal.ofBits_zero_f32]

/-- Entry `(b, k)` after the second clipping is unit `k` of row `b`'s second hidden layer. -/
theorem hid2_eq (b : Fin 4096) (k : Fin 64) :
    val_main_v23 (F := Ideal) x0 x3 x4 x5 x6 x7 (ix2 b k)
      = Cert.DeepFM.hid2 (Cert.DeepFM.rowOf x0 b) (fun n e => x3 (ix2 n e)) (fun j e => x4 (ix2 j e))
          (fun j => x5 (ix1 j)) (fun k j => x6 (ix2 k j)) (fun k => x7 (ix1 k)) k := by
  unfold Cert.DeepFM.hid2
  simp only [val_main_v23_apply, val_main_v22_apply, val_main_v19_apply, val_main_v18_apply, val_main_v21_apply,
    val_main_v20_apply, val_main_call1_v0_apply, val_main_call1_cst_apply, lidx19, widx19, bidx21, hid1_eq,
    Ideal.maximumf_def, Ideal.addf_def, Ideal.ofBits_def, Ideal.ofBits_zero_f32]

/-- Entry `(b, 0)` of the output layer is row `b`'s perceptron output. -/
theorem dnn_eq (b : Fin 4096) :
    val_main_v28 (F := Ideal) x0 x3 x4 x5 x6 x7 x8 x9 (ix2 b (0 : Fin 1))
      = Cert.DeepFM.dnn (Cert.DeepFM.rowOf x0 b) (fun n e => x3 (ix2 n e)) (fun j e => x4 (ix2 j e))
          (fun j => x5 (ix1 j)) (fun k j => x6 (ix2 k j)) (fun k => x7 (ix1 k)) (fun k => x8 (ix2 (0 : Fin 1) k))
          (x9 (ix1 (0 : Fin 1))) := by
  unfold Cert.DeepFM.dnn
  simp only [val_main_v28_apply, val_main_v25_apply, val_main_v24_apply, val_main_v27_apply, val_main_v26_apply,
    lidx25, widx25, bidx27, hid2_eq, Ideal.addf_def]

end Stages

/-- The reference's last stage, as a function of the ten argument arrays, is `G`: entry `b` is the score of input row
    `b` with the second-order sums taken columns outermost. -/
theorem ref_eq (x0 : (⟨S4096x1000, .f32⟩ : BufTy).Contents (Elt Ideal)) (x1 : (⟨S1x1000, .f32⟩ : BufTy).Contents (Elt Ideal)) (x2 : (⟨S1, .f32⟩ : BufTy).Contents (Elt Ideal)) (x3 : (⟨S1000x64, .f32⟩ : BufTy).Contents (Elt Ideal)) (x4 : (⟨S128x64, .f32⟩ : BufTy).Contents (Elt Ideal)) (x5 : (⟨S128, .f32⟩ : BufTy).Contents (Elt Ideal)) (x6 : (⟨S64x128, .f32⟩ : BufTy).Contents (Elt Ideal)) (x7 : (⟨S64, .f32⟩ : BufTy).Contents (Elt Ideal)) (x8 : (⟨S1x64, .f32⟩ : BufTy).Contents (Elt Ideal)) (x9 : (⟨S1, .f32⟩ : BufTy).Contents (Elt Ideal)) :
    val_main_v45 (F := Ideal) x0 x1 x2 x3 x4 x5 x6 x7 x8 x9 = Cert.DeepFM.G x0 x1 x2 x3 x4 x5 x6 x7 x8 x9 := by
  funext i
  obtain ⟨b, rfl⟩ : ∃ b : Fin 4096, i = ix1 b := ⟨i 0, eq_ix1 i⟩
  show val_main_v45 (F := Ideal) x0 x1 x2 x3 x4 x5 x6 x7 x8 x9 (ix1 b)
    = Cert.DeepFM.scoreCols (Cert.DeepFM.rowOf x0 b) (fun n => x1 (ix2 (0 : Fin 1) n)) (x2 (ix1 (0 : Fin 1)))
        (fun n e => x3 (ix2 n e)) (fun j e => x4 (ix2 j e)) (fun j => x5 (ix1 j)) (fun k j => x6 (ix2 k j))
        (fun k => x7 (ix1 k)) (fun k => x8 (ix2 (0 : Fin 1) k)) (x9 (ix1 (0 : Fin 1)))
  unfold Cert.DeepFM.scoreCols Cert.DeepFM.score Ideal.logistic
  simp only [val_main_v45_apply, idx45, val_main_v44_apply, val_main_v43_apply, val_main_cst_5_apply,
    val_main_v42_apply, val_main_v41_apply, val_main_cst_4_apply, val_main_v40_apply, val_main_v39_apply,
    val_main_cst_3_apply, val_main_v38_apply, val_main_v37_apply, val_main_cst_2_apply, val_main_v36_apply,
    val_main_v35_apply, val_main_v34_apply, val_main_v33_apply, val_main_v4_apply, val_main_v3_apply,
    val_main_v2_apply, bidx3, val_main_v32_apply, val_main_v31_apply, val_main_cst_1_apply, val_main_v30_apply,
    idx30, val_main_v29_apply, val_main_v7_apply, lin_eq, esum_eq, sq_eq, dnn_eq, Ideal.addf_def, Ideal.mulf_def,
    Ideal.subf_def, Ideal.hostDivf_def, Ideal.hostUnary_exp_def, Ideal.hostNegf_def, Ideal.negf_def,
    Ideal.ofBits_def, Ideal.ofBits_one_f32]

end Cert.ReferenceIdeal.RefValue

end
-- ==== Proof.Finite.lean ====
/-
  What the precondition gives: where `finite_inputs` is all ones, every entry of the input array and of the
  factor array is a real number (neither +∞ nor −∞).
-/
import proofs.«109720_g84026740179138_cont_9to1c4b_688_2_alg».proof.Pre_finite_inputs
import Idealize.ShloMosaic.PureOps.Ideal
import Idealize.ShloMosaic.Lib.ReduceAll
import Idealize.ShloMosaic.Lib.ValueIdx

noncomputable section

namespace Cert.Finite

open Cert.Pre_finite_inputs Idealize.ShloMosaic

/-- The scalar shape has exactly one index. -/
instance subsingleton_scalar_idx : Subsingleton S_.Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- An extended real `x` with `|x| < +∞` (the test `max x (-x) < +∞` answers one) is a real number: at `x = ±∞`
    the maximum of `x` and `-x` is `+∞`, which is not below itself. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- `jnp.all(|a| < +∞)` read back: if the conjunction over all indices of the test `|a i| < +∞` is one, then every
    entry of `a` is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant S_ .f32 0x7F800000#32)))
        (constantI S_ 1 1#1) hr hu ValueIdx.ix0 = 1#1)
    (i : s.Idx) : ∃ r : ℝ, a i = (r : EReal) := by
  have hi := Host.reduce_andi_all _ _ hr hu ValueIdx.ix0 e i
  exact real_of_abs_lt (a i) hi

/-- If the printed predicate evaluates to one, the first argument (the input array) and the fourth (the factor
    array) hold real numbers only: each `|a| < +∞` test in the conjunction holds at every index. -/
theorem real_of_pre [Cert.Pre_finite_inputs.Facts] (a0 : FVec Ideal S4096x1000 .f32) (a1 : FVec Ideal S1x1000 .f32) (a2 : FVec Ideal S1 .f32) (a3 : FVec Ideal S1000x64 .f32) (a4 : FVec Ideal S128x64 .f32) (a5 : FVec Ideal S128 .f32) (a6 : FVec Ideal S64x128 .f32) (a7 : FVec Ideal S64 .f32) (a8 : FVec Ideal S1x64 .f32) (a9 : FVec Ideal S1 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a3 i = (r : EReal)) := by
  have h0 := congrFun h ValueIdx.ix0
  simp only [fn, fn_part1, fn_part2, andi, IntOp.andi_eq_one] at h0
  obtain ⟨⟨⟨⟨⟨⟨⟨⟨⟨e0, -⟩, -⟩, e3⟩, -⟩, -⟩, -⟩, -⟩, -⟩, -⟩ := h0
  exact ⟨fun i => real_of_all a0 _ _ _ e0 i, fun i => real_of_all a3 _ _ _ e3 i⟩

end Cert.Finite

end
-- ==== Proof.Claims.lean ====
/-
  The five claims.

  The kernel streams the 4096 × 1000 input through one fused body, eight blocks of 512 rows: one matrix product
  against [F | w | rowsum F] gives the embedding, the first-order term and the sum of the embedding's entries at
  once, a second one against rowsum (F∘F) the sum of squares; a three-layer perceptron on the embedding and a
  logistic finish the score. The reference computes the same score with plain array operations, adding up the
  second-order sums in the other order. Over the extended reals the two orders agree once the input and the factor
  matrix are finite — that is where the precondition is used — and everything else is the same expression.

  The three frames: both kernels' are the generated frame certificates; the reference's is its generated run with
  the result dropped. The idealization rewrote nothing, so `preserves` is trivial.
-/
import proofs.«109720_g84026740179138_cont_9to1c4b_688_2_alg».proof.Defs
import proofs.«109720_g84026740179138_cont_9to1c4b_688_2_alg».proof.Proof.Gen.Kernel.Frame
import proofs.«109720_g84026740179138_cont_9to1c4b_688_2_alg».proof.Proof.Gen.KernelIdeal.Frame
import proofs.«109720_g84026740179138_cont_9to1c4b_688_2_alg».proof.Proof.Gen.ReferenceIdeal.Run
import proofs.«109720_g84026740179138_cont_9to1c4b_688_2_alg».proof.Proof.Gen.ReferenceIdeal.Read
import proofs.«109720_g84026740179138_cont_9to1c4b_688_2_alg».proof.Proof.Gen.Pre_finite_inputs
import proofs.«109720_g84026740179138_cont_9to1c4b_688_2_alg».proof.Proof.KernelRun
import proofs.«109720_g84026740179138_cont_9to1c4b_688_2_alg».proof.Proof.RefSide
import proofs.«109720_g84026740179138_cont_9to1c4b_688_2_alg».proof.Proof.Finite

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result vector at `G` of the kernel's arguments: entry `b` is the score of input row
    `b`. The kernel's run leaves the rows-outermost form, equal to `G` on finite input and factor arrays; the
    reference's stages compose to `G` of its own arguments, which agree with the kernel's. -/
theorem algebraic : Cert.algebraic_KernelIdeal_ReferenceIdeal := by
  intro m ρ m' ρ' hpre hagree
  refine ⟨fun c => Cert.DeepFM.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · refine (θ_run Cert.KernelIdeal.defs _ _).mono (fun _ h c => ⟨(h c).1.trans ?_, (h c).2⟩)
      (Cert.KernelIdeal.RunValue.run m ρ)
    obtain ⟨h0, h3⟩ := Cert.Finite.real_of_pre _ _ _ _ _ _ _ _ _ _ (hpre c)
    exact Cert.DeepFM.GRows_eq_G _ _ _ _ _ _ _ _ _ _ h0 h3
  · refine (θ_run Cert.ReferenceIdeal.defs _ _).mono (fun _ h c => ⟨(h c).1.trans ?_, (h c).2⟩)
      (Cert.ReferenceIdeal.Value.run (F := Ideal) m' ρ')
    obtain ⟨g0, g1, g2, g3, g4, g5, g6, g7, g8, g9⟩ := hagree c
    refine (Cert.ReferenceIdeal.Read.val_main_v45_eq _ _ _ _ _ _ _ _ _ _).trans ?_
    rw [Cert.ReferenceIdeal.RefValue.ref_eq, g0, g1, g2, g3, g4, g5, g6, g7, g8, g9]

end Cert.Proof.Claims

end
-- ==== Proof.lean ====
/-
  The certificate of the fused DeepFM forward pass against its array-level reference: the three frames, the
  (trivial) idealization claim and the equality of the two results over the extended reals (Proof/Claims.lean),
  behind the witnesses of the programs' stated side conditions.
-/
import proofs.«109720_g84026740179138_cont_9to1c4b_688_2_alg».proof.Defs
import proofs.«109720_g84026740179138_cont_9to1c4b_688_2_alg».proof.Proof.Claims
import proofs.«109720_g84026740179138_cont_9to1c4b_688_2_alg».proof.Proof.Gen.Kernel
import proofs.«109720_g84026740179138_cont_9to1c4b_688_2_alg».proof.Proof.Gen.KernelIdeal
import proofs.«109720_g84026740179138_cont_9to1c4b_688_2_alg».proof.Proof.Gen.ReferenceIdeal
import proofs.«109720_g84026740179138_cont_9to1c4b_688_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
